-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x512x512 : Shape := ⟨4, ![16, 16, 512, 512]⟩
abbrev S16x16x32x32 : Shape := ⟨4, ![16, 16, 32, 32]⟩
abbrev S1x1x256x9 : Shape := ⟨4, ![1, 1, 256, 9]⟩
abbrev S_ : Shape := ⟨0, ![]⟩

class Facts : Prop where
  bcast_S_S16x16x512x512 : S_.BroadcastsInDim S16x16x512x512 (![] : Fin 0 → Fin S16x16x512x512.rank)
  reducesTo_S16x16x512x512_S_d0_1_2_3 : S16x16x512x512.ReducesTo [0, 1, 2, 3] S_
  h_S_ : 0 < S_.numel
  bcast_S_S16x16x32x32 : S_.BroadcastsInDim S16x16x32x32 (![] : Fin 0 → Fin S16x16x32x32.rank)
  reducesTo_S16x16x32x32_S_d0_1_2_3 : S16x16x32x32.ReducesTo [0, 1, 2, 3] S_
  bcast_S_S1x1x256x9 : S_.BroadcastsInDim S1x1x256x9 (![] : Fin 0 → Fin S1x1x256x9.rank)
  reducesTo_S1x1x256x9_S_d0_1_2_3 : S1x1x256x9.ReducesTo [0, 1, 2, 3] S_

variable [Facts]

def fn {F : FTy → Type} [FloatOps F] (main_arg0 : FVec F S16x16x512x512 .f32) (main_arg1 : FVec F S16x16x32x32 .f32) (main_arg2 : FVec F S1x1x256x9 .f32) : IVec S_ 1 :=
  let main_v0 : FVec F S16x16x512x512 .f32 := Host.absf main_arg0
  let main_cst : FVec F S_ .f32 := constant S_ .f32 0x7F800000#32
  let main_v1 : FVec F S16x16x512x512 .f32 := broadcastInDim S16x16x512x512 ![] bcast_S_S16x16x512x512 main_cst
  let main_v2 : IVec S16x16x512x512 1 := cmpf .olt main_v0 main_v1
  let main_c : IVec S_ 1 := constantI S_ 1 1#1
  let main_v3 : IVec S_ 1 := (fun x v => Host.reduce IntOp.andi x v reducesTo_S16x16x512x512_S_d0_1_2_3 h_S_) main_v2 main_c
  let main_v4 : FVec F S16x16x32x32 .f32 := Host.absf main_arg1
  let main_cst_0 : FVec F S_ .f32 := constant S_ .f32 0x7F800000#32
  let main_v5 : FVec F S16x16x32x32 .f32 := broadcastInDim S16x16x32x32 ![] bcast_S_S16x16x32x32 main_cst_0
  let main_v6 : IVec S16x16x32x32 1 := cmpf .olt main_v4 main_v5
  let main_c_1 : IVec S_ 1 := constantI S_ 1 1#1
  let main_v7 : IVec S_ 1 := (fun x v => Host.reduce IntOp.andi x v reducesTo_S16x16x32x32_S_d0_1_2_3 h_S_) main_v6 main_c_1
  let main_v8 : IVec S_ 1 := andi main_v3 main_v7
  let main_v9 : FVec F S1x1x256x9 .f32 := Host.absf main_arg2
  let main_cst_2 : FVec F S_ .f32 := constant S_ .f32 0x7F800000#32
  let main_v10 : FVec F S1x1x256x9 .f32 := broadcastInDim S1x1x256x9 ![] bcast_S_S1x1x256x9 main_cst_2
  let main_v11 : IVec S1x1x256x9 1 := cmpf .olt main_v9 main_v10
  let main_c_3 : IVec S_ 1 := constantI S_ 1 1#1
  let main_v12 : IVec S_ 1 := (fun x v => Host.reduce IntOp.andi x v reducesTo_S1x1x256x9_S_d0_1_2_3 h_S_) main_v11 main_c_3
  let main_v13 : IVec S_ 1 := andi main_v8 main_v12
  main_v13
-- ==== Kernel.lean ====
abbrev S16x16x512x512 : Shape := ⟨4, ![16, 16, 512, 512]⟩
abbrev S16x16x32x32 : Shape := ⟨4, ![16, 16, 32, 32]⟩
abbrev S1x1x256x9 : Shape := ⟨4, ![1, 1, 256, 9]⟩
abbrev S_ : Shape := ⟨0, ![]⟩
abbrev S16x16x34x34 : Shape := ⟨4, ![16, 16, 34, 34]⟩
abbrev S16x16x1x32x32 : Shape := ⟨5, ![16, 16, 1, 32, 32]⟩
abbrev S16x16x9x32x32 : Shape := ⟨5, ![16, 16, 9, 32, 32]⟩
abbrev S16x32x32x16x9 : Shape := ⟨5, ![16, 32, 32, 16, 9]⟩
abbrev S16x9x512x512 : Shape := ⟨4, ![16, 9, 512, 512]⟩
abbrev S1x16x256x128 : Shape := ⟨4, ![1, 16, 256, 128]⟩
abbrev S1x16x8x16x9 : Shape := ⟨5, ![1, 16, 8, 16, 9]⟩
abbrev S1x9x256x128 : Shape := ⟨4, ![1, 9, 256, 128]⟩
abbrev S16x256x128 : Shape := ⟨3, ![16, 256, 128]⟩
abbrev S16x16x16x8x16 : Shape := ⟨5, ![16, 16, 16, 8, 16]⟩
abbrev S16x8x16x16x16 : Shape := ⟨5, ![16, 8, 16, 16, 16]⟩
abbrev S128x256x16 : Shape := ⟨3, ![128, 256, 16]⟩
abbrev S16x8x16x9 : Shape := ⟨4, ![16, 8, 16, 9]⟩
abbrev S128x16x9 : Shape := ⟨3, ![128, 16, 9]⟩
abbrev S128x256x9 : Shape := ⟨3, ![128, 256, 9]⟩
abbrev S128x256x1 : Shape := ⟨3, ![128, 256, 1]⟩
abbrev S128x256 : Shape := ⟨2, ![128, 256]⟩
abbrev S128x1x9 : Shape := ⟨3, ![128, 1, 9]⟩
abbrev S128x9 : Shape := ⟨2, ![128, 9]⟩
abbrev S256x9 : Shape := ⟨2, ![256, 9]⟩
abbrev S1x256x9 : Shape := ⟨3, ![1, 256, 9]⟩
abbrev S16x8x16x16x9 : Shape := ⟨5, ![16, 8, 16, 16, 9]⟩
abbrev S9x16x16x8x16 : Shape := ⟨5, ![9, 16, 16, 8, 16]⟩
abbrev S9x256x128 : Shape := ⟨3, ![9, 256, 128]⟩

abbrev nBuf : Space → Nat
  | .hbm => 27
  | .vmem => 7
  | .smem => 0
  | _ => 0

abbrev bufTy : (tb : Table) → Fin (tcTables nBuf tb) → BufTy
  | .hbm, ⟨0, _⟩ => ⟨S16x16x512x512, .f32⟩
  | .hbm, ⟨1, _⟩ => ⟨S16x16x32x32, .f32⟩
  | .hbm, ⟨2, _⟩ => ⟨S1x1x256x9, .f32⟩
  | .hbm, ⟨3, _⟩ => ⟨S_, .i32⟩
  | .hbm, ⟨4, _⟩ => ⟨S_, .f32⟩
  | .hbm, ⟨5, _⟩ => ⟨S16x16x34x34, .f32⟩
  | .hbm, ⟨6, _⟩ => ⟨S16x16x32x32, .f32⟩
  | .hbm, ⟨7, _⟩ => ⟨S16x16x32x32, .f32⟩
  | .hbm, ⟨8, _⟩ => ⟨S16x16x32x32, .f32⟩
  | .hbm, ⟨9, _⟩ => ⟨S16x16x32x32, .f32⟩
  | .hbm, ⟨10, _⟩ => ⟨S16x16x32x32, .f32⟩
  | .hbm, ⟨11, _⟩ => ⟨S16x16x32x32, .f32⟩
  | .hbm, ⟨12, _⟩ => ⟨S16x16x32x32, .f32⟩
  | .hbm, ⟨13, _⟩ => ⟨S16x16x32x32, .f32⟩
  | .hbm, ⟨14, _⟩ => ⟨S16x16x32x32, .f32⟩
  | .hbm, ⟨15, _⟩ => ⟨S16x16x1x32x32, .f32⟩
  | .hbm, ⟨16, _⟩ => ⟨S16x16x1x32x32, .f32⟩
  | .hbm, ⟨17, _⟩ => ⟨S16x16x1x32x32, .f32⟩
  | .hbm, ⟨18, _⟩ => ⟨S16x16x1x32x32, .f32⟩
  | .hbm, ⟨19, _⟩ => ⟨S16x16x1x32x32, .f32⟩
  | .hbm, ⟨20, _⟩ => ⟨S16x16x1x32x32, .f32⟩
  | .hbm, ⟨21, _⟩ => ⟨S16x16x1x32x32, .f32⟩
  | .hbm, ⟨22, _⟩ => ⟨S16x16x1x32x32, .f32⟩
  | .hbm, ⟨23, _⟩ => ⟨S16x16x1x32x32, .f32⟩
  | .hbm, ⟨24, _⟩ => ⟨S16x16x9x32x32, .f32⟩
  | .hbm, ⟨25, _⟩ => ⟨S16x32x32x16x9, .f32⟩
  | .hbm, ⟨26, _⟩ => ⟨S16x9x512x512, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x8x16x9, .f32⟩
  | .local _ .vmem, ⟨3, _⟩ => ⟨S1x16x8x16x9, .f32⟩
  | .local _ .vmem, ⟨4, _⟩ => ⟨S1x1x256x9, .f32⟩
  | .local _ .vmem, ⟨5, _⟩ => ⟨S1x9x256x128, .f32⟩
  | .local _ .vmem, ⟨6, _⟩ => ⟨S1x9x256x128, .f32⟩
  | _, _ => ⟨S16x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x8x16x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x1x256x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x9x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  pads_S16x16x32x32_S16x16x34x34_000_000_110_110 : S16x16x32x32.Pads (![0, 0, 1, 1] : Fin 4 → Nat) ![0, 0, 1, 1] ![0, 0, 0, 0] S16x16x34x34
  h_S_ : 0 < S_.numel
  slices_S16x16x34x34_S16x16x32x32_0_0_0_0 : S16x16x34x34.Slices ![0, 0, 0, 0] S16x16x32x32
  slices_S16x16x34x34_S16x16x32x32_0_0_0_1 : S16x16x34x34.Slices ![0, 0, 0, 1] S16x16x32x32
  slices_S16x16x34x34_S16x16x32x32_0_0_0_2 : S16x16x34x34.Slices ![0, 0, 0, 2] S16x16x32x32
  slices_S16x16x34x34_S16x16x32x32_0_0_1_0 : S16x16x34x34.Slices ![0, 0, 1, 0] S16x16x32x32
  slices_S16x16x34x34_S16x16x32x32_0_0_1_1 : S16x16x34x34.Slices ![0, 0, 1, 1] S16x16x32x32
  slices_S16x16x34x34_S16x16x32x32_0_0_1_2 : S16x16x34x34.Slices ![0, 0, 1, 2] S16x16x32x32
  slices_S16x16x34x34_S16x16x32x32_0_0_2_0 : S16x16x34x34.Slices ![0, 0, 2, 0] S16x16x32x32
  slices_S16x16x34x34_S16x16x32x32_0_0_2_1 : S16x16x34x34.Slices ![0, 0, 2, 1] S16x16x32x32
  slices_S16x16x34x34_S16x16x32x32_0_0_2_2 : S16x16x34x34.Slices ![0, 0, 2, 2] S16x16x32x32
  bcast_S16x16x32x32_S16x16x1x32x32_0_1_3_4 : S16x16x32x32.BroadcastsInDim S16x16x1x32x32 (![0, 1, 3, 4] : Fin 4 → Fin S16x16x1x32x32.rank)
  concatenates_S16x16x1x32x32_S16x16x1x32x32_S16x16x1x32x32_S16x16x1x32x32_S16x16x1x32x32_S16x16x1x32x32_S16x16x1x32x32_S16x16x1x32x32_S16x16x1x32x32_S16x16x9x32x32_d2 : Shape.Concatenates [S16x16x1x32x32, S16x16x1x32x32, S16x16x1x32x32, S16x16x1x32x32, S16x16x1x32x32, S16x16x1x32x32, S16x16x1x32x32, S16x16x1x32x32, S16x16x1x32x32] S16x16x9x32x32 2
  transposes_S16x16x9x32x32_S16x32x32x16x9_0_3_4_1_2 : S16x16x9x32x32.Transposes [0, 3, 4, 1, 2] S16x32x32x16x9
  inb_S1x16x256x128_S1x16x256x128_0_0_0_0 : ∀ a, (![0, 0, 0, 0] : Fin 4 → Nat) a + S1x16x256x128.size a ≤ S1x16x256x128.size a
  h_S1x16x256x128 : 0 < S1x16x256x128.numel
  shapeCasts_S1x16x256x128_S16x256x128 : S1x16x256x128.ShapeCasts S16x256x128
  shapeCasts_S16x256x128_S16x16x16x8x16 : S16x256x128.ShapeCasts S16x16x16x8x16
  transposes_S16x16x16x8x16_p1_3_2_4_0_S16x8x16x16x16 : S16x16x16x8x16.Transposes [1, 3, 2, 4, 0] S16x8x16x16x16
  shapeCasts_S16x8x16x16x16_S128x256x16 : S16x8x16x16x16.ShapeCasts S128x256x16
  inb_S1x16x8x16x9_S1x16x8x16x9_0_0_0_0_0 : ∀ a, (![0, 0, 0, 0, 0] : Fin 5 → Nat) a + S1x16x8x16x9.size a ≤ S1x16x8x16x9.size a
  h_S1x16x8x16x9 : 0 < S1x16x8x16x9.numel
  shapeCasts_S1x16x8x16x9_S16x8x16x9 : S1x16x8x16x9.ShapeCasts S16x8x16x9
  shapeCasts_S16x8x16x9_S128x16x9 : S16x8x16x9.ShapeCasts S128x16x9
  slices_S128x256x16_o0_0_0_S128x256x1 : S128x256x16.Slices ![0, 0, 0] S128x256x1
  shapeCasts_S128x256x1_S128x256 : S128x256x1.ShapeCasts S128x256
  shapeCasts_S128x256_S128x256x1 : S128x256.ShapeCasts S128x256x1
  slices_S128x16x9_o0_0_0_S128x1x9 : S128x16x9.Slices ![0, 0, 0] S128x1x9
  shapeCasts_S128x1x9_S128x9 : S128x1x9.ShapeCasts S128x9
  shapeCasts_S128x9_S128x1x9 : S128x9.ShapeCasts S128x1x9
  broadcasts_S128x256x1_S128x256x9 : S128x256x1.Broadcasts S128x256x9
  broadcasts_S128x1x9_S128x256x9 : S128x1x9.Broadcasts S128x256x9
  slices_S128x256x16_o0_0_1_S128x256x1 : S128x256x16.Slices ![0, 0, 1] S128x256x1
  slices_S128x16x9_o0_1_0_S128x1x9 : S128x16x9.Slices ![0, 1, 0] S128x1x9
  slices_S128x256x16_o0_0_2_S128x256x1 : S128x256x16.Slices ![0, 0, 2] S128x256x1
  slices_S128x16x9_o0_2_0_S128x1x9 : S128x16x9.Slices ![0, 2, 0] S128x1x9
  slices_S128x256x16_o0_0_3_S128x256x1 : S128x256x16.Slices ![0, 0, 3] S128x256x1
  slices_S128x16x9_o0_3_0_S128x1x9 : S128x16x9.Slices ![0, 3, 0] S128x1x9
  slices_S128x256x16_o0_0_4_S128x256x1 : S128x256x16.Slices ![0, 0, 4] S128x256x1
  slices_S128x16x9_o0_4_0_S128x1x9 : S128x16x9.Slices ![0, 4, 0] S128x1x9
  slices_S128x256x16_o0_0_5_S128x256x1 : S128x256x16.Slices ![0, 0, 5] S128x256x1
  slices_S128x16x9_o0_5_0_S128x1x9 : S128x16x9.Slices ![0, 5, 0] S128x1x9
  slices_S128x256x16_o0_0_6_S128x256x1 : S128x256x16.Slices ![0, 0, 6] S128x256x1
  slices_S128x16x9_o0_6_0_S128x1x9 : S128x16x9.Slices ![0, 6, 0] S128x1x9
  slices_S128x256x16_o0_0_7_S128x256x1 : S128x256x16.Slices ![0, 0, 7] S128x256x1
  slices_S128x16x9_o0_7_0_S128x1x9 : S128x16x9.Slices ![0, 7, 0] S128x1x9
  slices_S128x256x16_o0_0_8_S128x256x1 : S128x256x16.Slices ![0, 0, 8] S128x256x1
  slices_S128x16x9_o0_8_0_S128x1x9 : S128x16x9.Slices ![0, 8, 0] S128x1x9
  slices_S128x256x16_o0_0_9_S128x256x1 : S128x256x16.Slices ![0, 0, 9] S128x256x1
  slices_S128x16x9_o0_9_0_S128x1x9 : S128x16x9.Slices ![0, 9, 0] S128x1x9
  slices_S128x256x16_o0_0_10_S128x256x1 : S128x256x16.Slices ![0, 0, 10] S128x256x1
  slices_S128x16x9_o0_10_0_S128x1x9 : S128x16x9.Slices ![0, 10, 0] S128x1x9
  slices_S128x256x16_o0_0_11_S128x256x1 : S128x256x16.Slices ![0, 0, 11] S128x256x1
  slices_S128x16x9_o0_11_0_S128x1x9 : S128x16x9.Slices ![0, 11, 0] S128x1x9
  slices_S128x256x16_o0_0_12_S128x256x1 : S128x256x16.Slices ![0, 0, 12] S128x256x1
  slices_S128x16x9_o0_12_0_S128x1x9 : S128x16x9.Slices ![0, 12, 0] S128x1x9
  slices_S128x256x16_o0_0_13_S128x256x1 : S128x256x16.Slices ![0, 0, 13] S128x256x1
  slices_S128x16x9_o0_13_0_S128x1x9 : S128x16x9.Slices ![0, 13, 0] S128x1x9
  slices_S128x256x16_o0_0_14_S128x256x1 : S128x256x16.Slices ![0, 0, 14] S128x256x1
  slices_S128x16x9_o0_14_0_S128x1x9 : S128x16x9.Slices ![0, 14, 0] S128x1x9
  slices_S128x256x16_o0_0_15_S128x256x1 : S128x256x16.Slices ![0, 0, 15] S128x256x1
  slices_S128x16x9_o0_15_0_S128x1x9 : S128x16x9.Slices ![0, 15, 0] S128x1x9
  inb_S1x1x256x9_S1x1x256x9_0_0_0_0 : ∀ a, (![0, 0, 0, 0] : Fin 4 → Nat) a + S1x1x256x9.size a ≤ S1x1x256x9.size a
  h_S1x1x256x9 : 0 < S1x1x256x9.numel
  shapeCasts_S1x1x256x9_S256x9 : S1x1x256x9.ShapeCasts S256x9
  shapeCasts_S256x9_S1x256x9 : S256x9.ShapeCasts S1x256x9
  broadcasts_S1x256x9_S128x256x9 : S1x256x9.Broadcasts S128x256x9
  reduces_S128x256x9_S128x256 : S128x256x9.Reduces [2] S128x256
  shapeCasts_S128x256x9_S16x8x16x16x9 : S128x256x9.ShapeCasts S16x8x16x16x9
  transposes_S16x8x16x16x9_p4_0_2_1_3_S9x16x16x8x16 : S16x8x16x16x9.Transposes [4, 0, 2, 1, 3] S9x16x16x8x16
  shapeCasts_S9x16x16x8x16_S9x256x128 : S9x16x16x8x16.ShapeCasts S9x256x128
  inb_S1x9x256x128_S1x9x256x128_0_0_0_0 : ∀ a, (![0, 0, 0, 0] : Fin 4 → Nat) a + S1x9x256x128.size a ≤ S1x9x256x128.size a
  h_S1x9x256x128 : 0 < S1x9x256x128.numel
  shapeCasts_S1x9x256x128_S9x256x128 : S1x9x256x128.ShapeCasts S9x256x128
  shapeCasts_S9x256x128_S1x9x256x128 : S9x256x128.ShapeCasts S1x9x256x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x128.size a ≤ S16x16x512x512.size a
  hwx0_0 : ∀ i : grid0.Coords, EltTy.bits .f32 = 32 ∨ (Rect.block (s := S16x16x512x512) S1x16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x8x16x9.size a ≤ S16x32x32x16x9.size a
  hwx0_1 : ∀ i : grid0.Coords, EltTy.bits .f32 = 32 ∨ (Rect.block (s := S16x32x32x16x9) S1x16x8x16x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256x9.size a ≤ S1x1x256x9.size a
  hwx0_2 : ∀ i : grid0.Coords, EltTy.bits .f32 = 32 ∨ (Rect.block (s := S1x1x256x9) S1x1x256x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x9x256x128.size a ≤ S16x9x512x512.size a
  hwx0_3 : ∀ i : grid0.Coords, EltTy.bits .f32 = 32 ∨ (Rect.block (s := S16x9x512x512) S1x9x256x128.size (cc0_transform_3 i) (hinb0_3 i)).WholeWords (EltTy.packing .f32)

variable [Facts₀]

abbrev win0_0 : Pipeline.Window sig grid0 :=
  Pipeline.Window.ofSpec (Memref.whole main_arg0) S1x16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x16x8x16x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x9x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x16x512x512 : Shape := ⟨4, ![16, 16, 512, 512]⟩
abbrev S16x16x32x32 : Shape := ⟨4, ![16, 16, 32, 32]⟩
abbrev S1x1x256x9 : Shape := ⟨4, ![1, 1, 256, 9]⟩
abbrev S16x16x32x16x32x16 : Shape := ⟨6, ![16, 16, 32, 16, 32, 16]⟩
abbrev S16x32x32x16x16x16 : Shape := ⟨6, ![16, 32, 32, 16, 16, 16]⟩
abbrev S16x1024x256x16 : Shape := ⟨4, ![16, 1024, 256, 16]⟩
abbrev S_ : Shape := ⟨0, ![]⟩
abbrev S16x16x34x34 : Shape := ⟨4, ![16, 16, 34, 34]⟩
abbrev S16x16x1x32x32 : Shape := ⟨5, ![16, 16, 1, 32, 32]⟩
abbrev S16x16x9x32x32 : Shape := ⟨5, ![16, 16, 9, 32, 32]⟩
abbrev S16x16x9x1024 : Shape := ⟨4, ![16, 16, 9, 1024]⟩
abbrev S16x1024x16x9 : Shape := ⟨4, ![16, 1024, 16, 9]⟩
abbrev S16x1024x256x9 : Shape := ⟨4, ![16, 1024, 256, 9]⟩
abbrev S16x1024x256 : Shape := ⟨3, ![16, 1024, 256]⟩
abbrev S16x1024x256x1 : Shape := ⟨4, ![16, 1024, 256, 1]⟩
abbrev S16x32x32x16x16x9 : Shape := ⟨6, ![16, 32, 32, 16, 16, 9]⟩
abbrev S16x9x32x16x32x16 : Shape := ⟨6, ![16, 9, 32, 16, 32, 16]⟩
abbrev S16x9x512x512 : Shape := ⟨4, ![16, 9, 512, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x16x512x512, .f32⟩
  | .hbm, ⟨1, _⟩ => ⟨S16x16x32x32, .f32⟩
  | .hbm, ⟨2, _⟩ => ⟨S1x1x256x9, .f32⟩
  | .hbm, ⟨3, _⟩ => ⟨S16x16x32x16x32x16, .f32⟩
  | .hbm, ⟨4, _⟩ => ⟨S16x32x32x16x16x16, .f32⟩
  | .hbm, ⟨5, _⟩ => ⟨S16x1024x256x16, .f32⟩
  | .hbm, ⟨6, _⟩ => ⟨S_, .i32⟩
  | .hbm, ⟨7, _⟩ => ⟨S_, .f32⟩
  | .hbm, ⟨8, _⟩ => ⟨S16x16x34x34, .f32⟩
  | .hbm, ⟨9, _⟩ => ⟨S16x16x32x32, .f32⟩
  | .hbm, ⟨10, _⟩ => ⟨S16x16x32x32, .f32⟩
  | .hbm, ⟨11, _⟩ => ⟨S16x16x32x32, .f32⟩
  | .hbm, ⟨12, _⟩ => ⟨S16x16x32x32, .f32⟩
  | .hbm, ⟨13, _⟩ => ⟨S16x16x32x32, .f32⟩
  | .hbm, ⟨14, _⟩ => ⟨S16x16x32x32, .f32⟩
  | .hbm, ⟨15, _⟩ => ⟨S16x16x32x32, .f32⟩
  | .hbm, ⟨16, _⟩ => ⟨S16x16x32x32, .f32⟩
  | .hbm, ⟨17, _⟩ => ⟨S16x16x32x32, .f32⟩
  | .hbm, ⟨18, _⟩ => ⟨S16x16x1x32x32, .f32⟩
  | .hbm, ⟨19, _⟩ => ⟨S16x16x1x32x32, .f32⟩
  | .hbm, ⟨20, _⟩ => ⟨S16x16x1x32x32, .f32⟩
  | .hbm, ⟨21, _⟩ => ⟨S16x16x1x32x32, .f32⟩
  | .hbm, ⟨22, _⟩ => ⟨S16x16x1x32x32, .f32⟩
  | .hbm, ⟨23, _⟩ => ⟨S16x16x1x32x32, .f32⟩
  | .hbm, ⟨24, _⟩ => ⟨S16x16x1x32x32, .f32⟩
  | .hbm, ⟨25, _⟩ => ⟨S16x16x1x32x32, .f32⟩
  | .hbm, ⟨26, _⟩ => ⟨S16x16x1x32x32, .f32⟩
  | .hbm, ⟨27, _⟩ => ⟨S16x16x9x32x32, .f32⟩
  | .hbm, ⟨28, _⟩ => ⟨S16x16x9x1024, .f32⟩
  | .hbm, ⟨29, _⟩ => ⟨S16x1024x16x9, .f32⟩
  | .hbm, ⟨30, _⟩ => ⟨S16x1024x256x9, .f32⟩
  | .hbm, ⟨31, _⟩ => ⟨S_, .f32⟩
  | .hbm, ⟨32, _⟩ => ⟨S16x1024x256x9, .f32⟩
  | .hbm, ⟨33, _⟩ => ⟨S16x1024x256x9, .f32⟩
  | .hbm, ⟨34, _⟩ => ⟨S16x1024x256x9, .f32⟩
  | .hbm, ⟨35, _⟩ => ⟨S16x1024x256x9, .f32⟩
  | .hbm, ⟨36, _⟩ => ⟨S_, .f32⟩
  | .hbm, ⟨37, _⟩ => ⟨S16x1024x256, .f32⟩
  | .hbm, ⟨38, _⟩ => ⟨S_, .f32⟩
  | .hbm, ⟨39, _⟩ => ⟨S16x1024x256, .f32⟩
  | .hbm, ⟨40, _⟩ => ⟨S16x1024x256, .f32⟩
  | .hbm, ⟨41, _⟩ => ⟨S16x1024x256x1, .f32⟩
  | .hbm, ⟨42, _⟩ => ⟨S16x1024x256x9, .f32⟩
  | .hbm, ⟨43, _⟩ => ⟨S16x1024x256x9, .f32⟩
  | .hbm, ⟨44, _⟩ => ⟨S16x1024x256x9, .f32⟩
  | .hbm, ⟨45, _⟩ => ⟨S_, .f32⟩
  | .hbm, ⟨46, _⟩ => ⟨S16x1024x256, .f32⟩
  | .hbm, ⟨47, _⟩ => ⟨S16x1024x256x1, .f32⟩
  | .hbm, ⟨48, _⟩ => ⟨S16x1024x256x9, .f32⟩
  | .hbm, ⟨49, _⟩ => ⟨S16x1024x256x9, .f32⟩
  | .hbm, ⟨50, _⟩ => ⟨S16x32x32x16x16x9, .f32⟩
  | .hbm, ⟨51, _⟩ => ⟨S16x9x32x16x32x16, .f32⟩
  | .hbm, ⟨52, _⟩ => ⟨S16x9x512x512, .f32⟩
  | _, _ => ⟨S16x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]

class Facts₀ : Prop where
  shapeCasts_S16x16x512x512_S16x16x32x16x32x16 : S16x16x512x512.ShapeCasts S16x16x32x16x32x16
  transposes_S16x16x32x16x32x16_S16x32x32x16x16x16_0_2_4_3_5_1 : S16x16x32x16x32x16.Transposes [0, 2, 4, 3, 5, 1] S16x32x32x16x16x16
  shapeCasts_S16x32x32x16x16x16_S16x1024x256x16 : S16x32x32x16x16x16.ShapeCasts S16x1024x256x16
  pads_S16x16x32x32_S16x16x34x34_000_000_110_110 : S16x16x32x32.Pads (![0, 0, 1, 1] : Fin 4 → Nat) ![0, 0, 1, 1] ![0, 0, 0, 0] S16x16x34x34
  h_S_ : 0 < S_.numel
  slices_S16x16x34x34_S16x16x32x32_0_0_0_0 : S16x16x34x34.Slices ![0, 0, 0, 0] S16x16x32x32
  slices_S16x16x34x34_S16x16x32x32_0_0_0_1 : S16x16x34x34.Slices ![0, 0, 0, 1] S16x16x32x32
  slices_S16x16x34x34_S16x16x32x32_0_0_0_2 : S16x16x34x34.Slices ![0, 0, 0, 2] S16x16x32x32
  slices_S16x16x34x34_S16x16x32x32_0_0_1_0 : S16x16x34x34.Slices ![0, 0, 1, 0] S16x16x32x32
  slices_S16x16x34x34_S16x16x32x32_0_0_1_1 : S16x16x34x34.Slices ![0, 0, 1, 1] S16x16x32x32
  slices_S16x16x34x34_S16x16x32x32_0_0_1_2 : S16x16x34x34.Slices ![0, 0, 1, 2] S16x16x32x32
  slices_S16x16x34x34_S16x16x32x32_0_0_2_0 : S16x16x34x34.Slices ![0, 0, 2, 0] S16x16x32x32
  slices_S16x16x34x34_S16x16x32x32_0_0_2_1 : S16x16x34x34.Slices ![0, 0, 2, 1] S16x16x32x32
  slices_S16x16x34x34_S16x16x32x32_0_0_2_2 : S16x16x34x34.Slices ![0, 0, 2, 2] S16x16x32x32
  bcast_S16x16x32x32_S16x16x1x32x32_0_1_3_4 : S16x16x32x32.BroadcastsInDim S16x16x1x32x32 (![0, 1, 3, 4] : Fin 4 → Fin S16x16x1x32x32.rank)
  concatenates_S16x16x1x32x32_S16x16x1x32x32_S16x16x1x32x32_S16x16x1x32x32_S16x16x1x32x32_S16x16x1x32x32_S16x16x1x32x32_S16x16x1x32x32_S16x16x1x32x32_S16x16x9x32x32_d2 : Shape.Concatenates [S16x16x1x32x32, S16x16x1x32x32, S16x16x1x32x32, S16x16x1x32x32, S16x16x1x32x32, S16x16x1x32x32, S16x16x1x32x32, S16x16x1x32x32, S16x16x1x32x32] S16x16x9x32x32 2
  shapeCasts_S16x16x9x32x32_S16x16x9x1024 : S16x16x9x32x32.ShapeCasts S16x16x9x1024
  transposes_S16x16x9x1024_S16x1024x16x9_0_3_1_2 : S16x16x9x1024.Transposes [0, 3, 1, 2] S16x1024x16x9
  bcast_S_S16x1024x256x9 : S_.BroadcastsInDim S16x1024x256x9 (![] : Fin 0 → Fin S16x1024x256x9.rank)
  bcast_S1x1x256x9_S16x1024x256x9_0_1_2_3 : S1x1x256x9.BroadcastsInDim S16x1024x256x9 (![0, 1, 2, 3] : Fin 4 → Fin S16x1024x256x9.rank)
  reducesTo_S16x1024x256x9_S16x1024x256_d3 : S16x1024x256x9.ReducesTo [3] S16x1024x256
  bcast_S_S16x1024x256 : S_.BroadcastsInDim S16x1024x256 (![] : Fin 0 → Fin S16x1024x256.rank)
  bcast_S16x1024x256_S16x1024x256x1_0_1_2 : S16x1024x256.BroadcastsInDim S16x1024x256x1 (![0, 1, 2] : Fin 3 → Fin S16x1024x256x1.rank)
  bcast_S16x1024x256x1_S16x1024x256x9_0_1_2_3 : S16x1024x256x1.BroadcastsInDim S16x1024x256x9 (![0, 1, 2, 3] : Fin 4 → Fin S16x1024x256x9.rank)
  shapeCasts_S16x1024x256x9_S16x32x32x16x16x9 : S16x1024x256x9.ShapeCasts S16x32x32x16x16x9
  transposes_S16x32x32x16x16x9_S16x9x32x16x32x16_0_5_1_3_2_4 : S16x32x32x16x16x9.Transposes [0, 5, 1, 3, 2, 4] S16x9x32x16x32x16
  shapeCasts_S16x9x32x16x32x16_S16x9x512x512 : S16x9x32x16x32x16.ShapeCasts S16x9x512x512
  dot_S16x1024x256x16_S16x1024x16x9_S16x1024x256x9_3_2_2_3_01_01_wf : DotDims.WF S16x1024x256x16 S16x1024x16x9 S16x1024x256x9 [3] [2] [2] [3] [0, 1] [0, 1]

variable [Facts₀]

def dot_S16x1024x256x16_S16x1024x16x9_S16x1024x256x9_3_2_2_3_01_01 : DotDims S16x1024x256x16 S16x1024x16x9 S16x1024x256x9 where
  lhsContracting := [3]
  rhsContracting := [2]
  lhsNonContracting := [2]
  rhsNonContracting := [3]
  lhsBatch := [0, 1]
  rhsBatch := [0, 1]
  wf := dot_S16x1024x256x16_S16x1024x16x9_S16x1024x256x9_3_2_2_3_01_01_wf

class Facts : Prop extends Facts₀ where

variable [Facts]
-- ==== Proof.KBodyDef.lean ====
/-
  The value the kernel body stores into its output block, as one function of the three blocks it loads.

  From the image block x0 (16 channels of a 256 × 128 tile) the body makes the array [cell, pixel, channel] of its
  16 × 8 cells of 16 × 16 pixels; from the feature block x1 the array [cell, channel, tap].  It accumulates the sixteen
  channel products from zero — in four stretches, the way the text is cut —, scales by ¼, multiplies by the weight
  table x2 [pixel, tap], takes the softmax over the nine taps, and lays the result back out as [tap, row, column]
  of the tile.
-/
import proofs.«147833_j50508815401493_1_alg».proof.Proof.Gen.Kernel.Skeleton

noncomputable section

namespace Cert.Kernel.Hand

open Cert.Kernel Cert.Kernel.Gen
open Idealize.ShloMosaic Idealize.SL.Sem

variable {F : FTy → Type} [FloatOps F]

/-- The value the body stores, from the three loaded blocks. -/
def body (x0 : Vec F S1x16x256x128 .f32) (x1 : Vec F S1x16x8x16x9 .f32) (x2 : Vec F S1x1x256x9 .f32) : Vec F S1x9x256x128 .f32 :=
  k0_pay1
    (k0_pay10 (k0_pay2 x0) (k0_pay3 x1)
      (k0_pay7 (k0_pay2 x0) (k0_pay3 x1) (k0_pay4 x0 x1) (k0_pay5 x0) (k0_pay6 x1))
      (k0_pay8 (k0_pay2 x0)) (k0_pay9 (k0_pay3 x1)))
    (k0_pay11 (k0_pay2 x0)) (k0_pay12 (k0_pay3 x1)) x2

end Cert.Kernel.Hand

end
-- ==== Proof.KFrame.lean ====
/-
  The frame of the program: every weakly fair execution of @main terminates, nothing faults, and the three argument
  arrays end as they began; and, beyond the frame, what the result array holds after the run.

  @main is three stretches of host operations (a constant; the zero padding of the cell features; the nine shifted
  slices, their stacking along a new axis and a transpose) and then ONE kernel region on the grid 16 × 2 × 4.  At a grid
  point the kernel body loads its three input blocks whole — 16 channels of a 256 × 128 tile of the image, the
  16 × 8 cells' features for the nine taps, the weight table —, computes, and overwrites its output block whole by
  one store (it also loads the output block first and discards what it read).  So after the body the output's staging
  buffer holds `body` of the three input blocks, whatever it held before, and the inputs' buffers are untouched.  No host
  operation writes an argument array, so the region finds them as launched.
-/
import proofs.«147833_j50508815401493_1_alg».proof.Proof.Gen.Kernel.Launch
import proofs.«147833_j50508815401493_1_alg».proof.Proof.Gen.Kernel.Skeleton
import proofs.«147833_j50508815401493_1_alg».proof.Proof.Gen.Kernel.Points
import proofs.«147833_j50508815401493_1_alg».proof.Proof.KBodyDef
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the cell features. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the weight table. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every array of the pipeline at what the proof data compute and every other buffer as the
    region found it: the image and the weight table are staged inputs, never written back; the cell features are no
    window's array; and the region found all three as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c)))⟩) h

/-! ## What the body computes -/

abbrev r0_0 : Rect S1x16x256x128 := Rect.unit (s := S1x16x256x128) ![0, 0, 0, 0] S1x16x256x128.size inb_S1x16x256x128_S1x16x256x128_0_0_0_0
abbrev r0_1 : Rect S1x16x8x16x9 := Rect.unit (s := S1x16x8x16x9) ![0, 0, 0, 0, 0] S1x16x8x16x9.size inb_S1x16x8x16x9_S1x16x8x16x9_0_0_0_0_0
abbrev r0_2 : Rect S1x1x256x9 := Rect.unit (s := S1x1x256x9) ![0, 0, 0, 0] S1x1x256x9.size inb_S1x1x256x9_S1x1x256x9_0_0_0_0
abbrev r0_3 : Rect S1x9x256x128 := Rect.unit (s := S1x9x256x128) ![0, 0, 0, 0] S1x9x256x128.size inb_S1x9x256x128_S1x9x256x128_0_0_0_0

/-- The output window's staging buffer after the body: its one store, of `body` of the loaded blocks. -/
def out0_3 (x0 : Vec F S1x16x256x128 .f32) (x1 : Vec F S1x16x8x16x9 .f32) (x2 : Vec F S1x1x256x9 .f32) : Vec F S1x9x256x128 .f32 :=
  View.canon [⟨r0_3, body (View.ld x0 r0_0) (View.ld x1 r0_1) (View.ld x2 r0_2)⟩]

/-- The one store covers the buffer. -/
theorem cover0_3 (p0 : Vec F S1x9x256x128 .f32) (y : S1x9x256x128.Idx) :
    ∃ pc ∈ ([⟨r0_3, p0⟩] : List (View.Piece (Elt F) S1x9x256x128 .f32)), y ∈ pc.1.set :=
  View.cover_of_tiled [⟨r0_3, p0⟩] S1x9x256x128.size (by rfl) y

/-! ## The body's triple -/

set_option maxHeartbeats 2000000 in
/-- The kernel body on whole staging memrefs, the inputs' at contents `xW` and the output's at anything, runs to the
    continuation holding the inputs' as they were and the output's at `out0_3` of the inputs'. -/
theorem sound_kernel (c : Dev nD) (E : Set ℕ) (i : grid0.Coords) (arg3 : Memref sig .tc .vmem S1x16x256x128 .f32) (harg3 : arg3.IsWhole) (arg4 : Memref sig .tc .vmem S1x16x8x16x9 .f32) (harg4 : arg4.IsWhole) (arg5 : Memref sig .tc .vmem S1x1x256x9 .f32) (harg5 : arg5.IsWhole) (arg6 : Memref sig .tc .vmem S1x9x256x128 .f32) (harg6 : arg6.IsWhole)
    (x0 : Vec F S1x16x256x128 .f32) (x1 : Vec F S1x16x8x16x9 .f32) (x2 : Vec F S1x1x256x9 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out0_3 x0 x1 x2)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the one pipeline on core `c`: the arrays as the region finds them; after the body at point `t`
    each input's buffer at its block and the output's at `out0_3` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, nothing faults, the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIBodyDef.lean ====
/-
  The value the kernel body stores into its output block, as one function of the three blocks it loads.

  From the image block x0 (16 channels of a 256 × 128 tile) the body makes the array [cell, pixel, channel] of its
  16 × 8 cells of 16 × 16 pixels; from the feature block x1 the array [cell, channel, tap].  It accumulates the sixteen
  channel products from zero — in four stretches, the way the text is cut —, scales by ¼, multiplies by the weight
  table x2 [pixel, tap], takes the softmax over the nine taps, and lays the result back out as [tap, row, column]
  of the tile.
-/
import proofs.«147833_j50508815401493_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The value the body stores, from the three loaded blocks. -/
def body (x0 : Vec F S1x16x256x128 .f32) (x1 : Vec F S1x16x8x16x9 .f32) (x2 : Vec F S1x1x256x9 .f32) : Vec F S1x9x256x128 .f32 :=
  k0_pay1
    (k0_pay10 (k0_pay2 x0) (k0_pay3 x1)
      (k0_pay7 (k0_pay2 x0) (k0_pay3 x1) (k0_pay4 x0 x1) (k0_pay5 x0) (k0_pay6 x1))
      (k0_pay8 (k0_pay2 x0)) (k0_pay9 (k0_pay3 x1)))
    (k0_pay11 (k0_pay2 x0)) (k0_pay12 (k0_pay3 x1)) x2

end Cert.KernelIdeal.Hand

end
-- ==== Proof.KIFrame.lean ====
/-
  The frame of the program: every weakly fair execution of @main terminates, nothing faults, and the three argument
  arrays end as they began; and, beyond the frame, what the result array holds after the run.

  @main is three stretches of host operations (a constant; the zero padding of the cell features; the nine shifted
  slices, their stacking along a new axis and a transpose) and then ONE kernel region on the grid 16 × 2 × 4.  At a grid
  point the kernel body loads its three input blocks whole — 16 channels of a 256 × 128 tile of the image, the
  16 × 8 cells' features for the nine taps, the weight table —, computes, and overwrites its output block whole by
  one store (it also loads the output block first and discards what it read).  So after the body the output's staging
  buffer holds `body` of the three input blocks, whatever it held before, and the inputs' buffers are untouched.  No host
  operation writes an argument array, so the region finds them as launched.
-/
import proofs.«147833_j50508815401493_1_alg».proof.Proof.Gen.KernelIdeal.Launch
import proofs.«147833_j50508815401493_1_alg».proof.Proof.Gen.KernelIdeal.Skeleton
import proofs.«147833_j50508815401493_1_alg».proof.Proof.Gen.KernelIdeal.Points
import proofs.«147833_j50508815401493_1_alg».proof.Proof.KIBodyDef
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the cell features. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the weight table. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every array of the pipeline at what the proof data compute and every other buffer as the
    region found it: the image and the weight table are staged inputs, never written back; the cell features are no
    window's array; and the region found all three as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c)))⟩) h

/-! ## What the body computes -/

abbrev r0_0 : Rect S1x16x256x128 := Rect.unit (s := S1x16x256x128) ![0, 0, 0, 0] S1x16x256x128.size inb_S1x16x256x128_S1x16x256x128_0_0_0_0
abbrev r0_1 : Rect S1x16x8x16x9 := Rect.unit (s := S1x16x8x16x9) ![0, 0, 0, 0, 0] S1x16x8x16x9.size inb_S1x16x8x16x9_S1x16x8x16x9_0_0_0_0_0
abbrev r0_2 : Rect S1x1x256x9 := Rect.unit (s := S1x1x256x9) ![0, 0, 0, 0] S1x1x256x9.size inb_S1x1x256x9_S1x1x256x9_0_0_0_0
abbrev r0_3 : Rect S1x9x256x128 := Rect.unit (s := S1x9x256x128) ![0, 0, 0, 0] S1x9x256x128.size inb_S1x9x256x128_S1x9x256x128_0_0_0_0

/-- The output window's staging buffer after the body: its one store, of `body` of the loaded blocks. -/
def out0_3 (x0 : Vec F S1x16x256x128 .f32) (x1 : Vec F S1x16x8x16x9 .f32) (x2 : Vec F S1x1x256x9 .f32) : Vec F S1x9x256x128 .f32 :=
  View.canon [⟨r0_3, body (View.ld x0 r0_0) (View.ld x1 r0_1) (View.ld x2 r0_2)⟩]

/-- The one store covers the buffer. -/
theorem cover0_3 (p0 : Vec F S1x9x256x128 .f32) (y : S1x9x256x128.Idx) :
    ∃ pc ∈ ([⟨r0_3, p0⟩] : List (View.Piece (Elt F) S1x9x256x128 .f32)), y ∈ pc.1.set :=
  View.cover_of_tiled [⟨r0_3, p0⟩] S1x9x256x128.size (by rfl) y

/-! ## The body's triple -/

set_option maxHeartbeats 2000000 in
/-- The kernel body on whole staging memrefs, the inputs' at contents `xW` and the output's at anything, runs to the
    continuation holding the inputs' as they were and the output's at `out0_3` of the inputs'. -/
theorem sound_kernel (c : Dev nD) (E : Set ℕ) (i : grid0.Coords) (arg3 : Memref sig .tc .vmem S1x16x256x128 .f32) (harg3 : arg3.IsWhole) (arg4 : Memref sig .tc .vmem S1x16x8x16x9 .f32) (harg4 : arg4.IsWhole) (arg5 : Memref sig .tc .vmem S1x1x256x9 .f32) (harg5 : arg5.IsWhole) (arg6 : Memref sig .tc .vmem S1x9x256x128 .f32) (harg6 : arg6.IsWhole)
    (x0 : Vec F S1x16x256x128 .f32) (x1 : Vec F S1x16x8x16x9 .f32) (x2 : Vec F S1x1x256x9 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out0_3 x0 x1 x2)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the one pipeline on core `c`: the arrays as the region finds them; after the body at point `t`
    each input's buffer at its block and the output's at `out0_3` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, nothing faults, the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The result both programs compute, as ONE function of the argument arrays, index by index, on the extended reals.

  A pixel (H, W) of the 512 × 512 image lies in the cell (H / 16, W / 16) of the 32 × 32 cell grid and is the pixel
  (H % 16) · 16 + W % 16 of that cell.  Its nine logits, one per tap k of the 3 × 3 neighbourhood of the cell, are
      a k = ((∑ c, x[b, c, H, W] · P[b, c, k, H / 16, W / 16]) · ¼) · para[0, 0, pixel, k],
  where P is the array of the nine shifted copies of the zero-padded cell features (whatever it holds: both programs
  build it by the same operations, so it is carried as one array).  The result at (b, k, H, W) is the softmax of the
  nine logits at k, in the spelling both programs use: the maximum taken from −∞ (and once more against −∞), the
  exponentials of the differences, divided by their sum.
-/
import Idealize.ShloMosaic.PureOps.Ideal
import Idealize.ShloMosaic.Lib.ValueIdx

noncomputable section

namespace Cert.Spec

open Idealize.ShloMosaic Idealize.ShloMosaic.ValueIdx

/-- The image x, [batch, channel, row, column]. -/
abbrev SX : Shape := ⟨4, ![16, 16, 512, 512]⟩
/-- The nine shifted copies of the padded cell features, [batch, channel, tap, cell row, cell column]. -/
abbrev SPt : Shape := ⟨5, ![16, 16, 9, 32, 32]⟩
/-- The per-pixel, per-tap weights, [1, 1, pixel of the cell, tap]. -/
abbrev SPa : Shape := ⟨4, ![1, 1, 256, 9]⟩
/-- The result, [batch, tap, row, column]. -/
abbrev SO : Shape := ⟨4, ![16, 9, 512, 512]⟩

/-- −∞, as both programs write it. -/
def negInf : EReal := Ideal.ofBits .f32 0xFF800000#32
/-- ¼ = 16^(−½), as both programs write it. -/
def quarter : EReal := Ideal.ofBits .f32 0x3E800000#32

/-- The cell row (or column) of an image row (or column). -/
def cellOf (H : Fin 512) : Fin 32 := ⟨H.val / 16, by omega⟩
/-- The pixel's number inside its 16 × 16 cell. -/
def pixOf (H W : Fin 512) : Fin 256 := ⟨(H.val % 16) * 16 + W.val % 16, by omega⟩

/-- The maximum of nine logits, taken from −∞ and once more against −∞. -/
def rowMax (a : Fin 9 → EReal) : EReal := max negInf ((Finset.univ : Finset (Fin 9)).fold max negInf a)

/-- The softmax of nine logits at k. -/
def softmax9 (a : Fin 9 → EReal) (k : Fin 9) : EReal :=
  Ideal.div (Ideal.exp (a k - rowMax a)) (∑ k' : Fin 9, Ideal.exp (a k' - rowMax a))

/-- The nine logits of pixel (H, W) of batch b. -/
def logit (x : SX.Idx → EReal) (P : SPt.Idx → EReal) (pa : SPa.Idx → EReal) (b : Fin 16) (H W : Fin 512) (k : Fin 9) : EReal :=
  ((∑ c : Fin 16, x (ix4 b c H W) * P (ix5 b c k (cellOf H) (cellOf W))) * quarter) * pa (ix4 0 0 (pixOf H W) k)

/-- The result array. -/
def G (x : SX.Idx → EReal) (P : SPt.Idx → EReal) (pa : SPa.Idx → EReal) : SO.Idx → EReal :=
  fun i => softmax9 (logit x P pa (i 0) (i 2) (i 3)) (i 1)

theorem G_apply (x : SX.Idx → EReal) (P : SPt.Idx → EReal) (pa : SPa.Idx → EReal) (b : Fin 16) (k : Fin 9) (H W : Fin 512) :
    G x P pa (ix4 b k H W) = softmax9 (logit x P pa b H W) k := rfl

end Cert.Spec

end
-- ==== Proof.KIBodyValue.lean ====
/-
  The kernel body's stored value, read at an index of the output tile, at the ideal values: the softmax over the nine
  taps of the tile pixel's logits.
-/
import proofs.«147833_j50508815401493_1_alg».proof.Proof.KIBodyDef
import proofs.«147833_j50508815401493_1_alg».proof.Proof.Spec
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Cert.KernelIdeal.Hand
open Idealize.ShloMosaic Idealize.ShloMosaic.ValueIdx

section Layout
variable {α : Type}

/-- Channel o of the [cell, pixel, channel] array, cut out, cast to [cell, pixel] and back, and repeated over the
    nine taps, reads at (n, p, k) the array at (n, p, o). -/
theorem xbc_apply (v4 : S128x256x16.Idx → α) (o : Nat) (h : S128x256x16.Slices ![0, 0, o] S128x256x1)
    (n : Fin 128) (p : Fin 256) (k : Fin 9) :
    broadcastTo S128x256x9
        (shapeCast S128x256x1 (shapeCast S128x256 (extractStridedSlice S128x256x1 ![0, 0, o] v4 h)
          shapeCasts_S128x256x1_S128x256) shapeCasts_S128x256_S128x256x1)
        broadcasts_S128x256x1_S128x256x9 (ix3 n p k)
      = v4 (ix3 n p (⟨o, h.2 2⟩ : Fin 16)) := by
  rw [shapeCast_shapeCast]
  refine (broadcastTo_apply _ _ (ix3 n p k) (ix3 n p (0 : Fin 1)) (fun a => match a with
    | ⟨0, _⟩ => rfl
    | ⟨1, _⟩ => rfl
    | ⟨2, _⟩ => rfl)).trans ?_
  exact extractStridedSlice_apply _ _ _ _ _ (fun a => match a with
    | ⟨0, _⟩ => (Nat.zero_add _).symm
    | ⟨1, _⟩ => (Nat.zero_add _).symm
    | ⟨2, _⟩ => rfl)

/-- Channel o of the [cell, channel, tap] array, cut out, cast to [cell, tap] and back, and repeated over the 256
    pixels, reads at (n, p, k) the array at (n, o, k). -/
theorem wbc_apply (v7 : S128x16x9.Idx → α) (o : Nat) (h : S128x16x9.Slices ![0, o, 0] S128x1x9)
    (n : Fin 128) (p : Fin 256) (k : Fin 9) :
    broadcastTo S128x256x9
        (shapeCast S128x1x9 (shapeCast S128x9 (extractStridedSlice S128x1x9 ![0, o, 0] v7 h)
          shapeCasts_S128x1x9_S128x9) shapeCasts_S128x9_S128x1x9)
        broadcasts_S128x1x9_S128x256x9 (ix3 n p k)
      = v7 (ix3 n (⟨o, h.2 1⟩ : Fin 16) k) := by
  rw [shapeCast_shapeCast]
  refine (broadcastTo_apply _ _ (ix3 n p k) (ix3 n (0 : Fin 1) k) (fun a => match a with
    | ⟨0, _⟩ => rfl
    | ⟨1, _⟩ => rfl
    | ⟨2, _⟩ => rfl)).trans ?_
  exact extractStridedSlice_apply _ _ _ _ _ (fun a => match a with
    | ⟨0, _⟩ => (Nat.zero_add _).symm
    | ⟨1, _⟩ => rfl
    | ⟨2, _⟩ => (Nat.zero_add _).symm)

end Layout

/-- The image block laid out as [cell, pixel, channel]: cell n = th·8 + tw, pixel p = h·16 + w read the block's
    channel c at row th·16 + h, column tw·16 + w. -/
theorem pay2_apply (x0 : FVec Ideal S1x16x256x128 .f32) (th : Fin 16) (tw : Fin 8) (h w c : Fin 16)
    (n : Fin 128) (p r : Fin 256) (cl : Fin 128)
    (hn : n.val = th.val * 8 + tw.val) (hp : p.val = h.val * 16 + w.val)
    (hr : r.val = th.val * 16 + h.val) (hcl : cl.val = tw.val * 16 + w.val) :
    k0_pay2 (F := Ideal) x0 (ix3 n p c) = x0 (ix4 (0 : Fin 1) c r cl) := by
  unfold k0_pay2
  -- [16,8,16,16,16] at (th, tw, h, w, c) has the row-major position of [128,256,16] at (n, p, c)
  refine (shapeCast_apply _ _ (ix3 n p c) (ix5 th tw h w c) (by
    rw [Shape.rowMajor_val_five, Shape.rowMajor_val_three]
    show (((th.val * 8 + tw.val) * 16 + h.val) * 16 + w.val) * 16 + c.val = (n.val * 256 + p.val) * 16 + c.val
    omega)).trans ?_
  -- the transpose [1,3,2,4,0]: result axis b reads source axis perm[b]
  refine (transpose_apply _ _ _ (ix5 th tw h w c) (ix5 c th h tw w) (fun b => match b with
    | ⟨0, _⟩ => rfl
    | ⟨1, _⟩ => rfl
    | ⟨2, _⟩ => rfl
    | ⟨3, _⟩ => rfl
    | ⟨4, _⟩ => rfl)).trans ?_
  -- [16,256,128] at (c, r, cl) has the row-major position of [16,16,16,8,16] at (c, th, h, tw, w)
  refine (shapeCast_apply _ _ (ix5 c th h tw w) (ix3 c r cl) (by
    rw [Shape.rowMajor_val_five, Shape.rowMajor_val_three]
    show (c.val * 256 + r.val) * 128 + cl.val = (((c.val * 16 + th.val) * 16 + h.val) * 8 + tw.val) * 16 + w.val
    omega)).trans ?_
  exact shapeCast_1abc_abc_apply _ _ c r cl

/-- The feature block laid out as [cell, channel, tap]: cell n = th·8 + tw reads the block at (th, tw). -/
theorem pay3_apply (x1 : FVec Ideal S1x16x8x16x9 .f32) (th : Fin 16) (tw : Fin 8) (c : Fin 16) (k : Fin 9)
    (n : Fin 128) (hn : n.val = th.val * 8 + tw.val) :
    k0_pay3 (F := Ideal) x1 (ix3 n c k) = x1 (ix5 (0 : Fin 1) th tw c k) := by
  unfold k0_pay3
  refine (shapeCast_apply _ _ (ix3 n c k) (ix4 th tw c k) (by
    rw [Shape.rowMajor_val_four, Shape.rowMajor_val_three]
    show ((th.val * 8 + tw.val) * 16 + c.val) * 9 + k.val = (n.val * 16 + c.val) * 9 + k.val
    omega)).trans ?_
  exact shapeCast_apply _ _ (ix4 th tw c k) (ix5 (0 : Fin 1) th tw c k) (by
    rw [Shape.rowMajor_val_five, Shape.rowMajor_val_four]
    show ((((0 : Nat) * 16 + th.val) * 8 + tw.val) * 16 + c.val) * 9 + k.val = ((th.val * 8 + tw.val) * 16 + c.val) * 9 + k.val
    omega)

section Accumulate
variable (v4 : FVec Ideal S128x256x16 .f32) (v7 : FVec Ideal S128x16x9 .f32) (n : Fin 128) (p : Fin 256) (k : Fin 9)

/-- Channels 0 to 2 onto the zero start. -/
theorem pay4_apply (x0 : FVec Ideal S1x16x256x128 .f32) (x1 : FVec Ideal S1x16x8x16x9 .f32) :
    k0_pay4 (F := Ideal) x0 x1 (ix3 n p k)
      = Ideal.ofBits .f32 0x00000000#32
        + k0_pay2 x0 (ix3 n p (0 : Fin 16)) * k0_pay3 x1 (ix3 n (0 : Fin 16) k)
        + k0_pay2 x0 (ix3 n p (1 : Fin 16)) * k0_pay3 x1 (ix3 n (1 : Fin 16) k)
        + k0_pay2 x0 (ix3 n p (2 : Fin 16)) * k0_pay3 x1 (ix3 n (2 : Fin 16) k) := by
  unfold k0_pay4
  simp only [addf_apply, mulf_apply, xbc_apply, wbc_apply]
  rfl

/-- The two repeated slices of channel 3. -/
theorem pay5_apply (x0 : FVec Ideal S1x16x256x128 .f32) :
    k0_pay5 (F := Ideal) x0 (ix3 n p k) = k0_pay2 x0 (ix3 n p (3 : Fin 16)) := by
  unfold k0_pay5
  exact xbc_apply _ 3 _ n p k

theorem pay6_apply (x1 : FVec Ideal S1x16x8x16x9 .f32) :
    k0_pay6 (F := Ideal) x1 (ix3 n p k) = k0_pay3 x1 (ix3 n (3 : Fin 16) k) := by
  unfold k0_pay6
  exact wbc_apply _ 3 _ n p k

/-- Channel 3 from its two given factors, then channels 4 to 8, onto the given accumulator. -/
theorem pay7_apply (v38 v45 v46 : FVec Ideal S128x256x9 .f32) :
    k0_pay7 (F := Ideal) v4 v7 v38 v45 v46 (ix3 n p k)
      = v38 (ix3 n p k) + v45 (ix3 n p k) * v46 (ix3 n p k)
        + v4 (ix3 n p (4 : Fin 16)) * v7 (ix3 n (4 : Fin 16) k)
        + v4 (ix3 n p (5 : Fin 16)) * v7 (ix3 n (5 : Fin 16) k)
        + v4 (ix3 n p (6 : Fin 16)) * v7 (ix3 n (6 : Fin 16) k)
        + v4 (ix3 n p (7 : Fin 16)) * v7 (ix3 n (7 : Fin 16) k)
        + v4 (ix3 n p (8 : Fin 16)) * v7 (ix3 n (8 : Fin 16) k) := by
  unfold k0_pay7
  simp only [addf_apply, mulf_apply, xbc_apply, wbc_apply]
  rfl

/-- The two repeated slices of channel 9. -/
theorem pay8_apply : k0_pay8 (F := Ideal) v4 (ix3 n p k) = v4 (ix3 n p (9 : Fin 16)) := by
  unfold k0_pay8
  exact xbc_apply _ 9 _ n p k

theorem pay9_apply : k0_pay9 (F := Ideal) v7 (ix3 n p k) = v7 (ix3 n (9 : Fin 16) k) := by
  unfold k0_pay9
  exact wbc_apply _ 9 _ n p k

/-- Channel 9 from its two given factors, then channels 10 to 14, onto the given accumulator. -/
theorem pay10_apply (v98 v105 v106 : FVec Ideal S128x256x9 .f32) :
    k0_pay10 (F := Ideal) v4 v7 v98 v105 v106 (ix3 n p k)
      = v98 (ix3 n p k) + v105 (ix3 n p k) * v106 (ix3 n p k)
        + v4 (ix3 n p (10 : Fin 16)) * v7 (ix3 n (10 : Fin 16) k)
        + v4 (ix3 n p (11 : Fin 16)) * v7 (ix3 n (11 : Fin 16) k)
        + v4 (ix3 n p (12 : Fin 16)) * v7 (ix3 n (12 : Fin 16) k)
        + v4 (ix3 n p (13 : Fin 16)) * v7 (ix3 n (13 : Fin 16) k)
        + v4 (ix3 n p (14 : Fin 16)) * v7 (ix3 n (14 : Fin 16) k) := by
  unfold k0_pay10
  simp only [addf_apply, mulf_apply, xbc_apply, wbc_apply]
  rfl

/-- The two repeated slices of channel 15. -/
theorem pay11_apply : k0_pay11 (F := Ideal) v4 (ix3 n p k) = v4 (ix3 n p (15 : Fin 16)) := by
  unfold k0_pay11
  exact xbc_apply _ 15 _ n p k

theorem pay12_apply : k0_pay12 (F := Ideal) v7 (ix3 n p k) = v7 (ix3 n (15 : Fin 16) k) := by
  unfold k0_pay12
  exact wbc_apply _ 15 _ n p k

/-- A sum over sixteen channels, written out from the left as the body accumulates it from zero. -/
theorem sum16 (f : Fin 16 → EReal) :
    ∑ c : Fin 16, f c
      = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

end Accumulate

section Softmax

/-- The row maximum as the body takes it: the fold of max over the taps from −∞, and once more against −∞. -/
def rowMaxV (v : FVec Ideal S128x256x9 .f32) : FVec Ideal S128x256 .f32 :=
  maximumf (broadcast S128x256 (Scalar.ofBits .f32 0xFF800000#32))
    (multiReduction .maximumf [2] S128x256 v 0xFF800000#32 reduces_S128x256x9_S128x256 (.inl rfl) rfl)

/-- A [cell, pixel] array repeated over the nine taps. -/
def overTaps (m : FVec Ideal S128x256 .f32) : FVec Ideal S128x256x9 .f32 :=
  broadcastTo S128x256x9 (shapeCast S128x256x1 m shapeCasts_S128x256_S128x256x1) broadcasts_S128x256x1_S128x256x9

/-- The exponentials of the differences to the row maximum. -/
def expV (v : FVec Ideal S128x256x9 .f32) : FVec Ideal S128x256x9 .f32 :=
  exp (subf v (overTaps (rowMaxV v)))

/-- The exponentials divided by their sum over the taps. -/
def smV (v : FVec Ideal S128x256x9 .f32) : FVec Ideal S128x256x9 .f32 :=
  divf (expV v)
    (overTaps (multiReduction .add [2] S128x256 (expV v) 0x00000000#32 reduces_S128x256x9_S128x256 (.inl rfl) rfl))

/-- The scaled, weighted logits: (acc + a · b) · ¼ · weights. -/
def logitV (v158 v165 v166 : FVec Ideal S128x256x9 .f32) (x2 : FVec Ideal S1x1x256x9 .f32) : FVec Ideal S128x256x9 .f32 :=
  mulf (mulf (addf v158 (mulf v165 v166)) (broadcast S128x256x9 (Scalar.ofBits .f32 0x3E800000#32)))
    (broadcastTo S128x256x9 (shapeCast S1x256x9 (shapeCast S256x9 x2 shapeCasts_S1x1x256x9_S256x9) shapeCasts_S256x9_S1x256x9)
      broadcasts_S1x256x9_S128x256x9)

variable (n : Fin 128) (p : Fin 256) (k : Fin 9)

/-- Repeated over the taps, a [cell, pixel] array reads its own value at (n, p). -/
theorem overTaps_apply (m : FVec Ideal S128x256 .f32) : overTaps m (ix3 n p k) = m (ix2 n p) := by
  unfold overTaps
  refine (broadcastTo_apply _ _ (ix3 n p k) (ix3 n p (0 : Fin 1)) (fun a => match a with
    | ⟨0, _⟩ => rfl
    | ⟨1, _⟩ => rfl
    | ⟨2, _⟩ => rfl)).trans ?_
  exact shapeCast_apply _ _ (ix3 n p (0 : Fin 1)) (ix2 n p) (by
    rw [Shape.rowMajor_val_two, Shape.rowMajor_val_three]
    show n.val * 256 + p.val = (n.val * 256 + p.val) * 1 + 0
    omega)

/-- The index over (n, p) with tap k' put back on the reduced axis is (n, p, k'). -/
theorem lift_eq (k' : Fin 9) : reduces_S128x256x9_S128x256.lift (ix2 n p) k' = ix3 n p k' := by
  funext c
  match c with
  | ⟨0, _⟩ => rfl
  | ⟨1, _⟩ => rfl
  | ⟨2, _⟩ => rfl

/-- The row maximum at (n, p) is the specification's, of the nine values at (n, p, ·). -/
theorem rowMaxV_apply (v : FVec Ideal S128x256x9 .f32) :
    rowMaxV v (ix2 n p) = Cert.Spec.rowMax (fun k' => v (ix3 n p k')) := by
  unfold rowMaxV Cert.Spec.rowMax Cert.Spec.negInf
  refine congrArg (max (Ideal.ofBits .f32 0xFF800000#32)) ?_
  refine (Ideal.multiReduction_maximumf_single v _ reduces_S128x256x9_S128x256 _ _ (ix2 n p)).trans ?_
  refine congrArg (Finset.fold max (Ideal.ofBits .f32 0xFF800000#32) · Finset.univ) ?_
  funext k'
  exact congrArg v (lift_eq n p k')

/-- The exponential at (n, p, k) is exp of the difference to that row maximum. -/
theorem expV_apply (v : FVec Ideal S128x256x9 .f32) :
    expV v (ix3 n p k) = Ideal.exp (v (ix3 n p k) - Cert.Spec.rowMax (fun k' => v (ix3 n p k'))) := by
  unfold expV
  show Ideal.exp (v (ix3 n p k) - overTaps (rowMaxV v) (ix3 n p k)) = _
  rw [overTaps_apply, rowMaxV_apply]

/-- The quotient at (n, p, k) is the specification's softmax of the nine values at (n, p, ·): the sum over the reduced
    axis is the sum over the taps. -/
theorem smV_apply (v : FVec Ideal S128x256x9 .f32) :
    smV v (ix3 n p k) = Cert.Spec.softmax9 (fun k' => v (ix3 n p k')) k := by
  unfold smV Cert.Spec.softmax9
  show Ideal.div (expV v (ix3 n p k)) (overTaps _ (ix3 n p k)) = _
  rw [overTaps_apply, expV_apply]
  refine congrArg (Ideal.div _) ?_
  refine (Ideal.multiReduction_add_single (expV v) _ reduces_S128x256x9_S128x256 _ _ (ix2 n p)).trans ?_
  refine Finset.sum_congr rfl (fun k' _ => ?_)
  exact (congrArg (expV v) (lift_eq n p k')).trans (expV_apply n p k' v)

/-- The logits at (n, p, k): the weight table [1, 1, pixel, tap], cast to [pixel, tap] and [1, pixel, tap] and repeated over
    the cells, reads (0, 0, p, k). -/
theorem logitV_apply (v158 v165 v166 : FVec Ideal S128x256x9 .f32) (x2 : FVec Ideal S1x1x256x9 .f32) :
    logitV v158 v165 v166 x2 (ix3 n p k)
      = ((v158 (ix3 n p k) + v165 (ix3 n p k) * v166 (ix3 n p k)) * Cert.Spec.quarter) * x2 (ix4 (0 : Fin 1) (0 : Fin 1) p k) := by
  unfold logitV Cert.Spec.quarter
  refine congrArg (((v158 (ix3 n p k) + v165 (ix3 n p k) * v166 (ix3 n p k)) * Ideal.ofBits .f32 0x3E800000#32) * ·) ?_
  refine (broadcastTo_apply _ _ (ix3 n p k) (ix3 (0 : Fin 1) p k) (fun a => match a with
    | ⟨0, _⟩ => rfl
    | ⟨1, _⟩ => rfl
    | ⟨2, _⟩ => rfl)).trans ?_
  refine (shapeCast_ab_1ab_apply _ _ (0 : Fin 1) p k).trans ?_
  exact shapeCast_apply _ _ (ix2 p k) (ix4 (0 : Fin 1) (0 : Fin 1) p k) (by
    rw [Shape.rowMajor_val_four, Shape.rowMajor_val_two]
    show (((0 : Nat) * 1 + 0) * 256 + p.val) * 9 + k.val = p.val * 9 + k.val
    omega)

end Softmax

/-- The last payload at (0, k, r, cl) of the tile, r = th·16 + h, cl = tw·16 + w: the softmax at tap k of the logits of
    cell n = th·8 + tw, pixel p = h·16 + w. -/
theorem pay1_apply (v158 v165 v166 : FVec Ideal S128x256x9 .f32) (x2 : FVec Ideal S1x1x256x9 .f32)
    (k : Fin 9) (th : Fin 16) (tw : Fin 8) (h w : Fin 16) (n : Fin 128) (p r : Fin 256) (cl : Fin 128)
    (hn : n.val = th.val * 8 + tw.val) (hp : p.val = h.val * 16 + w.val)
    (hr : r.val = th.val * 16 + h.val) (hcl : cl.val = tw.val * 16 + w.val) :
    k0_pay1 (F := Ideal) v158 v165 v166 x2 (ix4 (0 : Fin 1) k r cl)
      = Cert.Spec.softmax9 (fun k' => ((v158 (ix3 n p k') + v165 (ix3 n p k') * v166 (ix3 n p k')) * Cert.Spec.quarter)
          * x2 (ix4 (0 : Fin 1) (0 : Fin 1) p k')) k := by
  unfold k0_pay1
  refine (shapeCast_abc_1abc_apply _ _ (0 : Fin 1) k r cl).trans ?_
  -- [9,16,16,8,16] at (k, th, h, tw, w) has the row-major position of [9,256,128] at (k, r, cl)
  refine (shapeCast_apply _ _ (ix3 k r cl) (ix5 k th h tw w) (by
    rw [Shape.rowMajor_val_five, Shape.rowMajor_val_three]
    show (((k.val * 16 + th.val) * 16 + h.val) * 8 + tw.val) * 16 + w.val = (k.val * 256 + r.val) * 128 + cl.val
    omega)).trans ?_
  -- the transpose [4,0,2,1,3]: result axis b reads source axis perm[b]
  refine (transpose_apply _ _ _ (ix5 k th h tw w) (ix5 th tw h w k) (fun b => match b with
    | ⟨0, _⟩ => rfl
    | ⟨1, _⟩ => rfl
    | ⟨2, _⟩ => rfl
    | ⟨3, _⟩ => rfl
    | ⟨4, _⟩ => rfl)).trans ?_
  -- [128,256,9] at (n, p, k) has the row-major position of [16,8,16,16,9] at (th, tw, h, w, k)
  refine (shapeCast_apply _ _ (ix5 th tw h w k) (ix3 n p k) (by
    rw [Shape.rowMajor_val_five, Shape.rowMajor_val_three]
    show (n.val * 256 + p.val) * 9 + k.val = (((th.val * 8 + tw.val) * 16 + h.val) * 16 + w.val) * 9 + k.val
    omega)).trans ?_
  show smV (logitV v158 v165 v166 x2) (ix3 n p k) = _
  rw [smV_apply]
  refine congrArg (Cert.Spec.softmax9 · k) ?_
  funext k'
  exact logitV_apply n p k' v158 v165 v166 x2

/-- The sixteen channel products, accumulated from zero in the four stretches of the text, are the sum over the channels. -/
theorem acc_apply (x0 : FVec Ideal S1x16x256x128 .f32) (x1 : FVec Ideal S1x16x8x16x9 .f32) (n : Fin 128) (p : Fin 256) (k : Fin 9) :
    k0_pay10 (F := Ideal) (k0_pay2 x0) (k0_pay3 x1)
        (k0_pay7 (k0_pay2 x0) (k0_pay3 x1) (k0_pay4 x0 x1) (k0_pay5 x0) (k0_pay6 x1))
        (k0_pay8 (k0_pay2 x0)) (k0_pay9 (k0_pay3 x1)) (ix3 n p k)
      + k0_pay11 (F := Ideal) (k0_pay2 x0) (ix3 n p k) * k0_pay12 (F := Ideal) (k0_pay3 x1) (ix3 n p k)
      = ∑ c : Fin 16, k0_pay2 (F := Ideal) x0 (ix3 n p c) * k0_pay3 (F := Ideal) x1 (ix3 n c k) := by
  rw [sum16, pay10_apply, pay7_apply, pay4_apply, pay5_apply, pay6_apply, pay8_apply, pay9_apply, pay11_apply, pay12_apply,
    Ideal.ofBits_zero_f32]

/-- Row r, column cl of the 256 × 128 tile lie in cell (r / 16, cl / 16) of the tile's 16 × 8 cells and are pixel
    (r % 16) · 16 + cl % 16 of it; at tap k the body stores the softmax, over the taps, of
    ((∑ c, x0[0, c, r, cl] · x1[0, r / 16, cl / 16, c, k']) · ¼) · x2[0, 0, pixel, k']. -/
theorem body_apply (x0 : FVec Ideal S1x16x256x128 .f32) (x1 : FVec Ideal S1x16x8x16x9 .f32) (x2 : FVec Ideal S1x1x256x9 .f32)
    (k : Fin 9) (r : Fin 256) (cl : Fin 128) :
    body (F := Ideal) x0 x1 x2 (ix4 (0 : Fin 1) k r cl)
      = Cert.Spec.softmax9 (fun k' => ((∑ c : Fin 16, x0 (ix4 (0 : Fin 1) c r cl)
            * x1 (ix5 (0 : Fin 1) (⟨r.val / 16, by omega⟩ : Fin 16) (⟨cl.val / 16, by omega⟩ : Fin 8) c k')) * Cert.Spec.quarter)
          * x2 (ix4 (0 : Fin 1) (0 : Fin 1) (⟨(r.val % 16) * 16 + cl.val % 16, by omega⟩ : Fin 256) k')) k := by
  unfold body
  -- the cell (th, tw) and the pixel (h, w) inside it
  have hth : r.val / 16 < 16 := by omega
  have htw : cl.val / 16 < 8 := by omega
  have hh : r.val % 16 < 16 := by omega
  have hw : cl.val % 16 < 16 := by omega
  have hn : (r.val / 16) * 8 + cl.val / 16 < 128 := by omega
  have hp : (r.val % 16) * 16 + cl.val % 16 < 256 := by omega
  refine (pay1_apply _ _ _ x2 k ⟨r.val / 16, hth⟩ ⟨cl.val / 16, htw⟩ ⟨r.val % 16, hh⟩ ⟨cl.val % 16, hw⟩
    ⟨(r.val / 16) * 8 + cl.val / 16, hn⟩ ⟨(r.val % 16) * 16 + cl.val % 16, hp⟩ r cl rfl rfl
    (by show r.val = r.val / 16 * 16 + r.val % 16; omega) (by show cl.val = cl.val / 16 * 16 + cl.val % 16; omega)).trans ?_
  refine congrArg (Cert.Spec.softmax9 · k) ?_
  funext k'
  refine congrArg (fun s => s * Cert.Spec.quarter * x2 (ix4 (0 : Fin 1) (0 : Fin 1) ⟨(r.val % 16) * 16 + cl.val % 16, hp⟩ k')) ?_
  refine (acc_apply x0 x1 _ _ k').trans ?_
  refine Finset.sum_congr rfl (fun c _ => ?_)
  rw [pay2_apply x0 ⟨r.val / 16, hth⟩ ⟨cl.val / 16, htw⟩ ⟨r.val % 16, hh⟩ ⟨cl.val % 16, hw⟩ c _ _ r cl rfl rfl
      (by show r.val = r.val / 16 * 16 + r.val % 16; omega) (by show cl.val = cl.val / 16 * 16 + cl.val % 16; omega),
    pay3_apply x1 ⟨r.val / 16, hth⟩ ⟨cl.val / 16, htw⟩ c k' _ rfl]

end Cert.KernelIdeal.BodyValue

end
-- ==== Proof.KIValue.lean ====
/-
  What the kernel program's result array holds after the run, at the ideal values: `Cert.Spec.G` of the image, the
  stacked shifted cell features and the weight table.

  The host operations before the region pad the cell features with a frame of zeros, take the nine 32 × 32 windows of
  the padded array at offsets (i, j), i, j ∈ {0, 1, 2}, stack them along a new axis (tap k = 3 i + j) and transpose the
  stack to [batch, cell row, cell column, channel, tap]: that is the array the kernel's second window reads.
  The grid point t handles batch B, tile row HI and tile column WI (the output window's block index at t); its output
  block is rows 256 HI .. 256 HI + 255 and columns 128 WI .. 128 WI + 127 of all nine taps of batch B, its image block
  the same rows and columns of all sixteen channels, its feature block cell rows 16 HI .. 16 HI + 15 and cell columns
  8 WI .. 8 WI + 7, and its weight block the whole table.  So the tile pixel (r, cl) is the image pixel
  (256 HI + r, 128 WI + cl), whose cell is (16 HI + r / 16, 8 WI + cl / 16) and whose number inside the cell is
  (r % 16) · 16 + cl % 16: what the body stores there is the softmax of that pixel's logits.  The 128 output blocks
  tile the result array, so it ends holding `G` everywhere.
-/
import proofs.«147833_j50508815401493_1_alg».proof.Proof.KIFrame
import proofs.«147833_j50508815401493_1_alg».proof.Proof.KIBodyValue
import proofs.«147833_j50508815401493_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand Cert.KernelIdeal.BodyValue
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The array the second window reads -/

/-- The cell features with a frame of zeros around the 32 × 32 cell grid. -/
def padded (x1 : FVec Ideal S16x16x32x32 .f32) : FVec Ideal S16x16x34x34 .f32 :=
  pad S16x16x34x34 ![0, 0, 1, 1] ![0, 0, 1, 1] ![0, 0, 0, 0] x1 (sitofp .f32 (constantI S_ 32 0#32)) pads_S16x16x32x32_S16x16x34x34_000_000_110_110 h_S_

/-- The nine shifted 32 × 32 windows of the padded features, stacked along a new axis: [batch, channel, tap, cell row,
    cell column]. -/
def patches (x1 : FVec Ideal S16x16x32x32 .f32) : FVec Ideal S16x16x9x32x32 .f32 :=
  concatenate S16x16x9x32x32 2 [⟨S16x16x1x32x32, broadcastInDim S16x16x1x32x32 ![0, 1, 3, 4] bcast_S16x16x32x32_S16x16x1x32x32_0_1_3_4 (extractStridedSlice S16x16x32x32 ![0, 0, 0, 0] (padded x1) slices_S16x16x34x34_S16x16x32x32_0_0_0_0)⟩,
    ⟨S16x16x1x32x32, broadcastInDim S16x16x1x32x32 ![0, 1, 3, 4] bcast_S16x16x32x32_S16x16x1x32x32_0_1_3_4 (extractStridedSlice S16x16x32x32 ![0, 0, 0, 1] (padded x1) slices_S16x16x34x34_S16x16x32x32_0_0_0_1)⟩,
    ⟨S16x16x1x32x32, broadcastInDim S16x16x1x32x32 ![0, 1, 3, 4] bcast_S16x16x32x32_S16x16x1x32x32_0_1_3_4 (extractStridedSlice S16x16x32x32 ![0, 0, 0, 2] (padded x1) slices_S16x16x34x34_S16x16x32x32_0_0_0_2)⟩,
    ⟨S16x16x1x32x32, broadcastInDim S16x16x1x32x32 ![0, 1, 3, 4] bcast_S16x16x32x32_S16x16x1x32x32_0_1_3_4 (extractStridedSlice S16x16x32x32 ![0, 0, 1, 0] (padded x1) slices_S16x16x34x34_S16x16x32x32_0_0_1_0)⟩,
    ⟨S16x16x1x32x32, broadcastInDim S16x16x1x32x32 ![0, 1, 3, 4] bcast_S16x16x32x32_S16x16x1x32x32_0_1_3_4 (extractStridedSlice S16x16x32x32 ![0, 0, 1, 1] (padded x1) slices_S16x16x34x34_S16x16x32x32_0_0_1_1)⟩,
    ⟨S16x16x1x32x32, broadcastInDim S16x16x1x32x32 ![0, 1, 3, 4] bcast_S16x16x32x32_S16x16x1x32x32_0_1_3_4 (extractStridedSlice S16x16x32x32 ![0, 0, 1, 2] (padded x1) slices_S16x16x34x34_S16x16x32x32_0_0_1_2)⟩,
    ⟨S16x16x1x32x32, broadcastInDim S16x16x1x32x32 ![0, 1, 3, 4] bcast_S16x16x32x32_S16x16x1x32x32_0_1_3_4 (extractStridedSlice S16x16x32x32 ![0, 0, 2, 0] (padded x1) slices_S16x16x34x34_S16x16x32x32_0_0_2_0)⟩,
    ⟨S16x16x1x32x32, broadcastInDim S16x16x1x32x32 ![0, 1, 3, 4] bcast_S16x16x32x32_S16x16x1x32x32_0_1_3_4 (extractStridedSlice S16x16x32x32 ![0, 0, 2, 1] (padded x1) slices_S16x16x34x34_S16x16x32x32_0_0_2_1)⟩,
    ⟨S16x16x1x32x32, broadcastInDim S16x16x1x32x32 ![0, 1, 3, 4] bcast_S16x16x32x32_S16x16x1x32x32_0_1_3_4 (extractStridedSlice S16x16x32x32 ![0, 0, 2, 2] (padded x1) slices_S16x16x34x34_S16x16x32x32_0_0_2_2)⟩] concatenates_S16x16x1x32x32_S16x16x1x32x32_S16x16x1x32x32_S16x16x1x32x32_S16x16x1x32x32_S16x16x1x32x32_S16x16x1x32x32_S16x16x1x32x32_S16x16x1x32x32_S16x16x9x32x32_d2

/-- The region finds the second window's array at the transposed stack of the launched cell features. -/
theorem V_main_v20 (c : Dev nD) :
    (V m c main_v20 : S16x32x32x16x9.Idx → EReal)
      = transpose S16x32x32x16x9 [0, 3, 4, 1, 2] (patches (m ((c : Thread nD τ).loc main_arg1))) transposes_S16x16x9x32x32_S16x32x32x16x9_0_3_4_1_2 := by
  dsimp only [V]
  simp only [hostOps0, hostOps0_1, hostOps0_2, List.flatten_cons, List.flatten_nil, List.append_nil, List.cons_append, List.nil_append]
  after_results_simp <;> rfl

/-- The transposed stack at [batch, cell row, cell column, channel, tap] is the stack at [batch, channel, tap, cell
    row, cell column]. -/
theorem V_main_v20_apply (c : Dev nD) (B : Fin 16) (I J : Fin 32) (ch : Fin 16) (k : Fin 9) :
    V m c main_v20 (ix5 B I J ch k) = patches (m ((c : Thread nD τ).loc main_arg1)) (ix5 B ch k I J) := by
  rw [V_main_v20]
  exact transpose_apply _ _ _ (ix5 B I J ch k) (ix5 B ch k I J) (fun b => by
    match b with
    | ⟨0, _⟩ => rfl
    | ⟨1, _⟩ => rfl
    | ⟨2, _⟩ => rfl
    | ⟨3, _⟩ => rfl
    | ⟨4, _⟩ => rfl)

/-! ## The windows' block indices over the grid -/

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- Decided over the 128 grid points: the image's block follows the output's on batch, rows and columns and takes all
    channels; the feature block follows it on batch, cell rows and cell columns; the weight block is the whole table;
    the output's block index is (B, 0, HI, WI) with B ≤ 15, HI ≤ 1, WI ≤ 3. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = win0_3.index t (3 : Fin 4)
    ∧ win0_1.index t (0 : Fin 5) = win0_3.index t (0 : Fin 4) ∧ win0_1.index t (1 : Fin 5) = win0_3.index t (2 : Fin 4)
    ∧ win0_1.index t (2 : Fin 5) = win0_3.index t (3 : Fin 4) ∧ win0_1.index t (3 : Fin 5) = 0 ∧ win0_1.index t (4 : Fin 5) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 4) ≤ 15 ∧ win0_3.index t (1 : Fin 4) = 0 ∧ win0_3.index t (2 : Fin 4) ≤ 1 ∧ win0_3.index t (3 : Fin 4) ≤ 3 :=
  (by decide +kernel : ∀ t : Fin grid0.N, _)

/-- Every block of the result array is some point's. -/
theorem idx_onto : ∀ (q0 : Fin 16) (q2 : Fin 2) (q3 : Fin 4), ∃ t : Fin cfg0.N, win0_3.index t = ![q0.val, 0, q2.val, q3.val] :=
  (by decide +kernel : ∀ (q0 : Fin 16) (q2 : Fin 2) (q3 : Fin 4), ∃ t : Fin grid0.N, win0_3.index t = ![q0.val, 0, q2.val, q3.val])

/-! ## The input blocks, read at an index -/

/-- The three input blocks at point `t`, at their literal types. -/
abbrev xblk (c : Dev nD) (t : Fin cfg0.N) : FVec Ideal S1x16x256x128 .f32 := iblk m c 0 t
abbrev sblk (c : Dev nD) (t : Fin cfg0.N) : FVec Ideal S1x16x8x16x9 .f32 := iblk m c 1 t
abbrev pblk (c : Dev nD) (t : Fin cfg0.N) : FVec Ideal S1x1x256x9 .f32 := iblk m c 2 t

/-- The image block's entry (channel, r, cl) is the launched image's at (B, channel, 256 HI + r, 128 WI + cl). -/
theorem xblk_apply (c : Dev nD) (t : Fin cfg0.N) (ch : Fin 16) (r : Fin 256) (cl : Fin 128) (B : Fin 16) (H W : Fin 512)
    (hB : B.val = win0_3.index t (0 : Fin 4)) (hH : H.val = win0_3.index t (2 : Fin 4) * 256 + r.val)
    (hW : W.val = win0_3.index t (3 : Fin 4) * 128 + cl.val) :
    xblk m c t (ix4 (0 : Fin 1) ch r cl) = m ((c : Thread nD τ).loc main_arg0) (ix4 B ch H W) := by
  obtain ⟨e0, e1, e2, e3, -⟩ := idx_facts t
  rw [← V_main_arg0 m c]
  show V m c main_arg0 (((cfg0.win 0).blk t).view.emb (ix4 (0 : Fin 1) ch r cl)) = V m c main_arg0 (ix4 B ch H W)
  refine congrArg (V m c main_arg0) (funext fun a => Fin.ext ?_)
  match a with
  | ⟨0, _⟩ => show win0_0.index t (0 : Fin 4) * 1 + 1 * 0 = B.val; omega
  | ⟨1, _⟩ => show win0_0.index t (1 : Fin 4) * 16 + 1 * ch.val = ch.val; omega
  | ⟨2, _⟩ => show win0_0.index t (2 : Fin 4) * 256 + 1 * r.val = H.val; omega
  | ⟨3, _⟩ => show win0_0.index t (3 : Fin 4) * 128 + 1 * cl.val = W.val; omega

/-- The feature block's entry (th, tw, channel, tap) is the stack's at (B, channel, tap, 16 HI + th, 8 WI + tw). -/
theorem sblk_apply (c : Dev nD) (t : Fin cfg0.N) (th : Fin 16) (tw : Fin 8) (ch : Fin 16) (k : Fin 9) (B : Fin 16) (I J : Fin 32)
    (hB : B.val = win0_3.index t (0 : Fin 4)) (hI : I.val = win0_3.index t (2 : Fin 4) * 16 + th.val)
    (hJ : J.val = win0_3.index t (3 : Fin 4) * 8 + tw.val) :
    sblk m c t (ix5 (0 : Fin 1) th tw ch k) = patches (m ((c : Thread nD τ).loc main_arg1)) (ix5 B ch k I J) := by
  obtain ⟨-, -, -, -, e4, e5, e6, e7, e8, -⟩ := idx_facts t
  rw [← V_main_v20_apply m c B I J ch k]
  show V m c main_v20 (((cfg0.win 1).blk t).view.emb (ix5 (0 : Fin 1) th tw ch k)) = V m c main_v20 (ix5 B I J ch k)
  refine congrArg (V m c main_v20) (funext fun a => Fin.ext ?_)
  match a with
  | ⟨0, _⟩ => show win0_1.index t (0 : Fin 5) * 1 + 1 * 0 = B.val; omega
  | ⟨1, _⟩ => show win0_1.index t (1 : Fin 5) * 16 + 1 * th.val = I.val; omega
  | ⟨2, _⟩ => show win0_1.index t (2 : Fin 5) * 8 + 1 * tw.val = J.val; omega
  | ⟨3, _⟩ => show win0_1.index t (3 : Fin 5) * 16 + 1 * ch.val = ch.val; omega
  | ⟨4, _⟩ => show win0_1.index t (4 : Fin 5) * 9 + 1 * k.val = k.val; omega

/-- The weight block is the launched table. -/
theorem pblk_apply (c : Dev nD) (t : Fin cfg0.N) (p : Fin 256) (k : Fin 9) :
    pblk m c t (ix4 (0 : Fin 1) (0 : Fin 1) p k) = m ((c : Thread nD τ).loc main_arg2) (ix4 (0 : Fin 1) (0 : Fin 1) p k) := by
  obtain ⟨-, -, -, -, -, -, -, -, -, e9, e10, e11, e12, -⟩ := idx_facts t
  rw [← V_main_arg2 m c]
  show V m c main_arg2 (((cfg0.win 2).blk t).view.emb (ix4 (0 : Fin 1) (0 : Fin 1) p k)) = V m c main_arg2 (ix4 (0 : Fin 1) (0 : Fin 1) p k)
  refine congrArg (V m c main_arg2) (funext fun a => Fin.ext ?_)
  match a with
  | ⟨0, _⟩ => show win0_2.index t (0 : Fin 4) * 1 + 1 * 0 = 0; omega
  | ⟨1, _⟩ => show win0_2.index t (1 : Fin 4) * 1 + 1 * 0 = 0; omega
  | ⟨2, _⟩ => show win0_2.index t (2 : Fin 4) * 256 + 1 * p.val = p.val; omega
  | ⟨3, _⟩ => show win0_2.index t (3 : Fin 4) * 9 + 1 * k.val = k.val; omega

/-! ## What a point writes back -/

/-- The result array: `G` of the launched image, the stack of the launched cell features, the launched weights. -/
def Gk (c : Dev nD) : S16x9x512x512.Idx → EReal :=
  Cert.Spec.G (m ((c : Thread nD τ).loc main_arg0)) (patches (m ((c : Thread nD τ).loc main_arg1))) (m ((c : Thread nD τ).loc main_arg2))

/-- What point `t` writes back is block `t` of `G`. -/
theorem flushed_eq (c : Dev nD) (t : Fin cfg0.N) :
    (dats m 0 c).flushed 3 t = ((cfg0.win 3).blk t).view.read (Elt Ideal) (Gk m c) := by
  show (cfg0.win 3).cut (grid0.coords t) ((dats m 0 c).after 3 t) = _
  rw [after0_3]
  unfold out0_3
  rw [View.canon_unit_zero hz4]
  simp only [View.ld_unit_zero (S := S1x16x256x128) hz4, View.ld_unit_zero (S := S1x16x8x16x9) hz5, View.ld_unit_zero (S := S1x1x256x9) hz4]
  obtain ⟨-, -, -, -, -, -, -, -, -, -, -, -, -, b0, b1, b2, b3⟩ := idx_facts t
  funext j
  obtain ⟨z, k, r, cl, rfl⟩ : ∃ (z : Fin 1) (k : Fin 9) (r : Fin 256) (cl : Fin 128), j = ix4 z k r cl := ⟨j 0, j 1, j 2, j 3, eq_ix4 j⟩
  obtain rfl : z = 0 := Subsingleton.elim _ _
  have hr : r.val < 256 := r.isLt
  have hcl : cl.val < 128 := cl.isLt
  -- the image pixel of the tile pixel
  let B : Fin 16 := ⟨win0_3.index t (0 : Fin 4), by omega⟩
  let H : Fin 512 := ⟨win0_3.index t (2 : Fin 4) * 256 + r.val, by omega⟩
  let W : Fin 512 := ⟨win0_3.index t (3 : Fin 4) * 128 + cl.val, by omega⟩
  have hemb : ((cfg0.win 3).blk t).view.emb (ix4 (0 : Fin 1) k r cl) = ix4 B k H W := by
    funext a; apply Fin.ext
    match a with
    | ⟨0, _⟩ => show win0_3.index t (0 : Fin 4) * 1 + 1 * 0 = win0_3.index t (0 : Fin 4); omega
    | ⟨1, _⟩ => show win0_3.index t (1 : Fin 4) * 9 + 1 * k.val = k.val; omega
    | ⟨2, _⟩ => show win0_3.index t (2 : Fin 4) * 256 + 1 * r.val = win0_3.index t (2 : Fin 4) * 256 + r.val; omega
    | ⟨3, _⟩ => show win0_3.index t (3 : Fin 4) * 128 + 1 * cl.val = win0_3.index t (3 : Fin 4) * 128 + cl.val; omega
  show body (F := Ideal) (xblk m c t) (sblk m c t) (pblk m c t) (ix4 (0 : Fin 1) k r cl) = Gk m c (((cfg0.win 3).blk t).view.emb (ix4 (0 : Fin 1) k r cl))
  rw [hemb]
  refine (body_apply (xblk m c t) (sblk m c t) (pblk m c t) k r cl).trans ?_
  unfold Gk
  rw [Cert.Spec.G_apply]
  refine congrArg (fun a => Cert.Spec.softmax9 a k) (funext fun k' => ?_)
  unfold Cert.Spec.logit
  have hp : (⟨(r.val % 16) * 16 + cl.val % 16, by omega⟩ : Fin 256) = Cert.Spec.pixOf H W := Fin.ext (by
    show (r.val % 16) * 16 + cl.val % 16 = ((win0_3.index t (2 : Fin 4) * 256 + r.val) % 16) * 16 + (win0_3.index t (3 : Fin 4) * 128 + cl.val) % 16; omega)
  rw [pblk_apply m c t _ k', hp]
  refine congrArg (fun s => (s * Cert.Spec.quarter) * m ((c : Thread nD τ).loc main_arg2) (ix4 (0 : Fin 1) (0 : Fin 1) (Cert.Spec.pixOf H W) k')) ?_
  refine Finset.sum_congr rfl fun ch _ => ?_
  rw [xblk_apply m c t ch r cl B H W rfl rfl rfl,
    sblk_apply m c t ⟨r.val / 16, by omega⟩ ⟨cl.val / 16, by omega⟩ ch k' B (Cert.Spec.cellOf H) (Cert.Spec.cellOf W) rfl
      (by show (win0_3.index t (2 : Fin 4) * 256 + r.val) / 16 = win0_3.index t (2 : Fin 4) * 16 + r.val / 16; omega)
      (by show (win0_3.index t (3 : Fin 4) * 128 + cl.val) / 16 = win0_3.index t (3 : Fin 4) * 8 + cl.val / 16; omega)]

/-! ## The blocks tile the result array -/

theorem mem_blk (t : Fin cfg0.N) (i : S16x9x512x512.Idx) :
    i ∈ ((cfg0.win 3).blk t).view.set ↔ ∀ a : Fin 4, win0_3.index t a * S1x9x256x128.size a ≤ (i a).val ∧ (i a).val < win0_3.index t a * S1x9x256x128.size a + S1x9x256x128.size a := by
  show i ∈ ((View.whole main_v21).slice (win0_3.rect t)).set ↔ _
  rw [View.set_slice_whole, Rect.mem_set_unit]
  exact Iff.rfl

/-- Every index of the result array lies in the block of the point whose block index is (batch, 0, row / 256,
    column / 128). -/
theorem cover (i : S16x9x512x512.Idx) : ∃ t : Fin cfg0.N, (cfg0.win 3).flush t = true ∧ i ∈ ((cfg0.win 3).blk t).view.set := by
  have hi0 : (i 0).val < 16 := (i 0).isLt
  have hi1 : (i 1).val < 9 := (i 1).isLt
  have hi2 : (i 2).val < 512 := (i 2).isLt
  have hi3 : (i 3).val < 512 := (i 3).isLt
  obtain ⟨t, ht⟩ := idx_onto ⟨(i 0).val, hi0⟩ ⟨(i 2).val / 256, by omega⟩ ⟨(i 3).val / 128, by omega⟩
  have q0 : win0_3.index t (0 : Fin 4) = (i 0).val := congrFun ht 0
  have q1 : win0_3.index t (1 : Fin 4) = 0 := congrFun ht 1
  have q2 : win0_3.index t (2 : Fin 4) = (i 2).val / 256 := congrFun ht 2
  have q3 : win0_3.index t (3 : Fin 4) = (i 3).val / 128 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 9 ≤ (i 1).val ∧ (i 1).val < win0_3.index t (1 : Fin 4) * 9 + 9; omega
  | ⟨2, _⟩ => show win0_3.index t (2 : Fin 4) * 256 ≤ (i 2).val ∧ (i 2).val < win0_3.index t (2 : Fin 4) * 256 + 256; omega
  | ⟨3, _⟩ => show win0_3.index t (3 : Fin 4) * 128 ≤ (i 3).val ∧ (i 3).val < win0_3.index t (3 : Fin 4) * 128 + 128; omega

/-- The result array after the run. -/
theorem final (c : Dev nD) : (dats m 0 c).arrAt 3 cfg0.N = Gk m c :=
  (dats m 0 c).arrAt_eq_of_cover 3 (Gk m c) (fun t _ => flushed_eq m c t) cover

/-! ## The run, read -/

/-- Every weakly fair execution of the kernel program terminates with the result array at `G` of the arguments and the
    arguments as launched. -/
theorem run : θ_run defs (onTc (τ := τ) (main (F := Ideal))) ⟨m, fun _ => 0, ρ⟩ fun r => ∀ c : Dev nD,
      r.2.mem ((c : Thread nD τ).loc main_v21) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ)

end Cert.KernelIdeal.HandValue

end
-- ==== Proof.RefValue.lean ====
/-
  The reference's result, read index by index at the ideal values, is the function `Cert.Spec.G` of its arguments and
  of the array of the nine shifted copies of the padded cell features (the stacked array it builds on the way).

  Coordinates used throughout: a pixel (H, W) of the 512 × 512 image is (hh · 16 + h, ww · 16 + w) with (hh, ww) its cell
  of the 32 × 32 grid and (h, w) its place inside the 16 × 16 cell; the reference works on the arrays indexed by
  [batch, n = hh · 32 + ww, p = h · 16 + w, ·], which are row-major regroupings of the same elements.
-/
import proofs.«147833_j50508815401493_1_alg».proof.Proof.Gen.ReferenceIdeal.Read
import proofs.«147833_j50508815401493_1_alg».proof.Proof.Spec
import Idealize.ShloMosaic.Lib.ValueIdx
import Idealize.ShloMosaic.Lib.ValueIdxRank6
import Idealize.ShloMosaic.Lib.Pipeline.Value
import Idealize.ShloMosaic.PureOps.Ideal.Laws
import Idealize.ShloMosaic.PureOps.Reduce

noncomputable section

namespace Cert.RefValue

open Cert.ReferenceIdeal Cert.ReferenceIdeal.Gen Cert.ReferenceIdeal.Read
open Idealize.ShloMosaic Idealize.ShloMosaic.ValueIdx

/-! ## The image side: [b, c, H, W] regrouped to [b, n, p, c] -/

/-- The image split by cells: element (b, c, hh, h, ww, w) of the rank-6 view is pixel (hh · 16 + h, ww · 16 + w). -/
theorem v0_at (x0 : (⟨S16x16x512x512, .f32⟩ : BufTy).Contents (Elt Ideal)) (b c : Fin 16) (hh : Fin 32) (h : Fin 16) (ww : Fin 32) (w : Fin 16) :
    val_main_v0 (F := Ideal) x0 (ix6 b c hh h ww w)
      = x0 (ix4 b c (⟨hh.val * 16 + h.val, by omega⟩ : Fin 512) (⟨ww.val * 16 + w.val, by omega⟩ : Fin 512)) := by
  unfold val_main_v0
  refine shapeCast_apply x0 _ _ _ ?_
  rw [Shape.rowMajor_val_four, Shape.rowMajor_val_six]
  show ((b.val * 16 + c.val) * 512 + (hh.val * 16 + h.val)) * 512 + (ww.val * 16 + w.val)
    = ((((b.val * 16 + c.val) * 32 + hh.val) * 16 + h.val) * 32 + ww.val) * 16 + w.val
  omega

/-- The transposed view (b, hh, ww, h, w, c) reads the split image at (b, c, hh, h, ww, w). -/
theorem v1_at (x0 : (⟨S16x16x512x512, .f32⟩ : BufTy).Contents (Elt Ideal)) (b : Fin 16) (hh ww : Fin 32) (h w c : Fin 16) :
    val_main_v1 (F := Ideal) x0 (ix6 b hh ww h w c) = val_main_v0 (F := Ideal) x0 (ix6 b c hh h ww w) := by
  rw [val_main_v1_apply]
  exact congrArg _ (funext fun a => match a with
    | ⟨0, _⟩ => rfl | ⟨1, _⟩ => rfl | ⟨2, _⟩ => rfl | ⟨3, _⟩ => rfl | ⟨4, _⟩ => rfl | ⟨5, _⟩ => rfl)

/-- The pixel features: element (b, n, p, c) with n = hh · 32 + ww, p = h · 16 + w is channel c of pixel
    (hh · 16 + h, ww · 16 + w). -/
theorem v2_at (x0 : (⟨S16x16x512x512, .f32⟩ : BufTy).Contents (Elt Ideal)) (b : Fin 16) (hh ww : Fin 32) (h w c : Fin 16) :
    val_main_v2 (F := Ideal) x0 (ix4 b (⟨hh.val * 32 + ww.val, by omega⟩ : Fin 1024) (⟨h.val * 16 + w.val, by omega⟩ : Fin 256) c)
      = x0 (ix4 b c (⟨hh.val * 16 + h.val, by omega⟩ : Fin 512) (⟨ww.val * 16 + w.val, by omega⟩ : Fin 512)) := by
  unfold val_main_v2
  refine (shapeCast_apply _ _ _ (ix6 b hh ww h w c) ?_).trans ((v1_at x0 b hh ww h w c).trans (v0_at x0 b c hh h ww w))
  rw [Shape.rowMajor_val_four, Shape.rowMajor_val_six]
  show ((((b.val * 32 + hh.val) * 32 + ww.val) * 16 + h.val) * 16 + w.val) * 16 + c.val
    = ((b.val * 1024 + (hh.val * 32 + ww.val)) * 256 + (h.val * 16 + w.val)) * 16 + c.val
  omega

/-! ## The cell-feature side: the stacked array [b, c, k, hh, ww] regrouped to [b, n, c, k] -/

/-- The stacked array with its two cell axes merged: element (b, c, k, n) with n = hh · 32 + ww is (b, c, k, hh, ww). -/
theorem v23_at (x1 : (⟨S16x16x32x32, .f32⟩ : BufTy).Contents (Elt Ideal)) (b c : Fin 16) (k : Fin 9) (hh ww : Fin 32) :
    val_main_v23 (F := Ideal) x1 (ix4 b c k (⟨hh.val * 32 + ww.val, by omega⟩ : Fin 1024))
      = val_main_v22 (F := Ideal) x1 (ix5 b c k hh ww) := by
  unfold val_main_v23
  refine shapeCast_apply _ _ _ (ix5 b c k hh ww) ?_
  rw [Shape.rowMajor_val_five, Shape.rowMajor_val_four]
  show (((b.val * 16 + c.val) * 9 + k.val) * 32 + hh.val) * 32 + ww.val
    = ((b.val * 16 + c.val) * 9 + k.val) * 1024 + (hh.val * 32 + ww.val)
  omega

/-- Its transpose to [b, n, c, k]. -/
theorem v24_at (x1 : (⟨S16x16x32x32, .f32⟩ : BufTy).Contents (Elt Ideal)) (b c : Fin 16) (k : Fin 9) (hh ww : Fin 32) :
    val_main_v24 (F := Ideal) x1 (ix4 b (⟨hh.val * 32 + ww.val, by omega⟩ : Fin 1024) c k)
      = val_main_v22 (F := Ideal) x1 (ix5 b c k hh ww) := by
  rw [val_main_v24_apply]
  refine Eq.trans (congrArg _ (funext fun a => match a with
    | ⟨0, _⟩ => rfl | ⟨1, _⟩ => rfl | ⟨2, _⟩ => rfl | ⟨3, _⟩ => rfl)) (v23_at x1 b c k hh ww)

/-! ## The nine logits of a pixel -/

/-- The scaled, weighted contraction over the channels at (b, n, p, k): the sum over c of the pixel's channel c times
    tap k of the cell's stacked features, times ¼, times the weight of (p, k). -/
theorem v29_at (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (hh ww : Fin 32) (h w : Fin 16) (k : Fin 9) :
    val_main_v29 (F := Ideal) x0 x1 x2 (ix4 b (⟨hh.val * 32 + ww.val, by omega⟩ : Fin 1024) (⟨h.val * 16 + w.val, by omega⟩ : Fin 256) k)
      = ((∑ c : Fin 16, x0 (ix4 b c (⟨hh.val * 16 + h.val, by omega⟩ : Fin 512) (⟨ww.val * 16 + w.val, by omega⟩ : Fin 512))
            * val_main_v22 (F := Ideal) x1 (ix5 b c k hh ww)) * Cert.Spec.quarter)
          * x2 (ix4 0 0 (⟨h.val * 16 + w.val, by omega⟩ : Fin 256) k) := by
  rw [val_main_v29_apply, val_main_v27_apply, val_main_v28_apply, val_main_v25_apply, val_main_v26_apply, val_main_cst_apply]
  show ((∑ c : Fin 16, _ * _) * Ideal.ofBits .f32 0x3E800000#32) * _ = _
  refine congrArg₂ (· * ·) (congrArg (· * Cert.Spec.quarter) (Finset.sum_congr rfl fun c _ => ?_)) ?_
  · refine congrArg₂ (· * ·) (Eq.trans (congrArg _ (funext fun a => match a with
      | ⟨0, _⟩ => rfl | ⟨1, _⟩ => rfl | ⟨2, _⟩ => rfl | ⟨3, _⟩ => rfl)) (v2_at x0 b hh ww h w c))
      (Eq.trans (congrArg _ (funext fun a => match a with
      | ⟨0, _⟩ => rfl | ⟨1, _⟩ => rfl | ⟨2, _⟩ => rfl | ⟨3, _⟩ => rfl)) (v24_at x1 b c k hh ww))
  · exact congrArg x2 (funext fun a => match a with
      | ⟨0, _⟩ => rfl | ⟨1, _⟩ => rfl | ⟨2, _⟩ => rfl | ⟨3, _⟩ => rfl)

/-! ## The softmax over the nine taps, at any (b, n, p) -/

/-- The nine values of the logit array at (b, n, p). -/
def row (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (n : Fin 1024) (p : Fin 256) : Fin 9 → EReal :=
  fun k => val_main_v29 (F := Ideal) x0 x1 x2 (ix4 b n p k)

/-- The row maximum: the fold of the maximum from −∞ over the nine taps, once more against −∞. -/
theorem v32_at (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (n : Fin 1024) (p : Fin 256) :
    val_main_v32 (F := Ideal) x0 x1 x2 (ix3 b n p) = Cert.Spec.rowMax (row x0 x1 x2 b n p) := by
  rw [val_main_v32_apply, val_main_v31_apply, val_main_cst_1_apply]
  unfold val_main_v30
  rw [Host.reduce_eq_fold_single FloatOps.maximumf _ _ reducesTo_S16x1024x256x9_S16x1024x256_d3 (by decide) h_S_]
  have hf : (val_main_v29 (F := Ideal) x0 x1 x2 ∘ Shape.Reduces.lift (s := S16x1024x256x9) (t := S16x1024x256) (a := 3) (by decide) (ix3 b n p))
      = row x0 x1 x2 b n p := funext fun k => congrArg (val_main_v29 (F := Ideal) x0 x1 x2) (funext fun a => match a with
      | ⟨0, _⟩ => rfl | ⟨1, _⟩ => rfl | ⟨2, _⟩ => rfl | ⟨3, _⟩ => rfl)
  rw [hf]
  rfl

/-- The softmax stages: the quotient of the exponential of the difference to the row maximum by the sum of the nine
    such exponentials (the sum's initial value is the real 0). -/
theorem v40_at (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (n : Fin 1024) (p : Fin 256) (k : Fin 9) :
    val_main_v40 (F := Ideal) x0 x1 x2 (ix4 b n p k) = Cert.Spec.softmax9 (row x0 x1 x2 b n p) k := by
  have e34 : ∀ k' : Fin 9, val_main_v34 (F := Ideal) x0 x1 x2 (ix4 b n p k') = Cert.Spec.rowMax (row x0 x1 x2 b n p) := fun k' => by
    rw [val_main_v34_apply, val_main_v33_apply]
    have ei : idx_main_v33 (idx_main_v34 (ix4 b n p k')) = ix3 b n p := funext fun a => match a with
      | ⟨0, _⟩ => rfl | ⟨1, _⟩ => rfl | ⟨2, _⟩ => rfl
    rw [ei]
    exact v32_at x0 x1 x2 b n p
  have e36 : ∀ k' : Fin 9, val_main_v36 (F := Ideal) x0 x1 x2 (ix4 b n p k')
      = Ideal.exp (row x0 x1 x2 b n p k' - Cert.Spec.rowMax (row x0 x1 x2 b n p)) := fun k' => by
    rw [val_main_v36_apply, val_main_v35_apply, e34 k']
    rfl
  have e39 : val_main_v39 (F := Ideal) x0 x1 x2 (ix4 b n p k)
      = ∑ k' : Fin 9, Ideal.exp (row x0 x1 x2 b n p k' - Cert.Spec.rowMax (row x0 x1 x2 b n p)) := by
    rw [val_main_v39_apply, val_main_v38_apply, val_main_v37_apply, val_main_cst_2_apply]
    refine Eq.trans (congrArg₂ (· + ·) Ideal.ofBits_zero_f32 (Finset.sum_congr rfl fun k' _ => ?_)) (zero_add _)
    have ei : idx_main_v37 (idx_main_v38 (idx_main_v39 (ix4 b n p k))) k' = ix4 b n p k' := funext fun a => match a with
      | ⟨0, _⟩ => rfl | ⟨1, _⟩ => rfl | ⟨2, _⟩ => rfl | ⟨3, _⟩ => rfl
    rw [ei]
    exact e36 k'
  rw [val_main_v40_apply, e36 k, e39]
  rfl

/-! ## The result side: [b, n, p, k] regrouped to [b, k, H, W] -/

/-- The result split by cells: element (b, hh, ww, h, w, k) of the rank-6 view is (b, n, p, k). -/
theorem v41_at (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (hh ww : Fin 32) (h w : Fin 16) (k : Fin 9) :
    val_main_v41 (F := Ideal) x0 x1 x2 (ix6 b hh ww h w k)
      = val_main_v40 (F := Ideal) x0 x1 x2 (ix4 b (⟨hh.val * 32 + ww.val, by omega⟩ : Fin 1024) (⟨h.val * 16 + w.val, by omega⟩ : Fin 256) k) := by
  unfold val_main_v41
  refine shapeCast_apply _ _ _ _ ?_
  rw [Shape.rowMajor_val_four, Shape.rowMajor_val_six]
  show ((b.val * 1024 + (hh.val * 32 + ww.val)) * 256 + (h.val * 16 + w.val)) * 9 + k.val
    = ((((b.val * 32 + hh.val) * 32 + ww.val) * 16 + h.val) * 16 + w.val) * 9 + k.val
  omega

/-- The transposed view (b, k, hh, h, ww, w) reads it at (b, hh, ww, h, w, k). -/
theorem v42_at (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (k : Fin 9) (hh : Fin 32) (h : Fin 16) (ww : Fin 32) (w : Fin 16) :
    val_main_v42 (F := Ideal) x0 x1 x2 (ix6 b k hh h ww w) = val_main_v41 (F := Ideal) x0 x1 x2 (ix6 b hh ww h w k) := by
  rw [val_main_v42_apply]
  exact congrArg _ (funext fun a => match a with
    | ⟨0, _⟩ => rfl | ⟨1, _⟩ => rfl | ⟨2, _⟩ => rfl | ⟨3, _⟩ => rfl | ⟨4, _⟩ => rfl | ⟨5, _⟩ => rfl)

/-- The result at (b, k, H, W) with H = hh · 16 + h and W = ww · 16 + w is the rank-6 view at (b, k, hh, h, ww, w). -/
theorem v43_at (x0 : (⟨S16x16x512x512, .f32⟩ : BufTy).Contents (Elt Ideal)) (x1 : (⟨S16x16x32x32, .f32⟩ : BufTy).Contents (Elt Ideal)) (x2 : (⟨S1x1x256x9, .f32⟩ : BufTy).Contents (Elt Ideal))
    (b : Fin 16) (k : Fin 9) (hh : Fin 32) (h : Fin 16) (ww : Fin 32) (w : Fin 16) :
    val_main_v43 (F := Ideal) x0 x1 x2 (ix4 b k (⟨hh.val * 16 + h.val, by omega⟩ : Fin 512) (⟨ww.val * 16 + w.val, by omega⟩ : Fin 512))
      = val_main_v42 (F := Ideal) x0 x1 x2 (ix6 b k hh h ww w) := by
  unfold val_main_v43
  refine shapeCast_apply _ _ _ _ ?_
  rw [Shape.rowMajor_val_four, Shape.rowMajor_val_six]
  show ((((b.val * 9 + k.val) * 32 + hh.val) * 16 + h.val) * 32 + ww.val) * 16 + w.val
    = ((b.val * 9 + k.val) * 512 + (hh.val * 16 + h.val)) * 512 + (ww.val * 16 + w.val)
  omega

/-! ## Assembly -/

/-- The reference's last stage is `G` of the image, the stacked shifted features and the weight table. -/
theorem ref_eq (x0 : (⟨S16x16x512x512, .f32⟩ : BufTy).Contents (Elt Ideal)) (x1 : (⟨S16x16x32x32, .f32⟩ : BufTy).Contents (Elt Ideal))
    (x2 : (⟨S1x1x256x9, .f32⟩ : BufTy).Contents (Elt Ideal)) :
    val_main_v43 (F := Ideal) x0 x1 x2 = Cert.Spec.G x0 (val_main_v22 (F := Ideal) x1) x2 := by
  funext i
  obtain ⟨b, k, H, W, rfl⟩ : ∃ (b : Fin 16) (k : Fin 9) (H W : Fin 512), i = ix4 b k H W := ⟨i 0, i 1, i 2, i 3, eq_ix4 i⟩
  -- the cell (hh, ww) of the pixel and its place (h, w) inside the cell
  have eH : (⟨(Cert.Spec.cellOf H).val * 16 + (⟨H.val % 16, by omega⟩ : Fin 16).val, by
      show H.val / 16 * 16 + H.val % 16 < 512; omega⟩ : Fin 512) = H :=
    Fin.ext (by show H.val / 16 * 16 + H.val % 16 = H.val; omega)
  have eW : (⟨(Cert.Spec.cellOf W).val * 16 + (⟨W.val % 16, by omega⟩ : Fin 16).val, by
      show W.val / 16 * 16 + W.val % 16 < 512; omega⟩ : Fin 512) = W :=
    Fin.ext (by show W.val / 16 * 16 + W.val % 16 = W.val; omega)
  have h43 := v43_at x0 x1 x2 b k (Cert.Spec.cellOf H) ⟨H.val % 16, by omega⟩ (Cert.Spec.cellOf W) ⟨W.val % 16, by omega⟩
  rw [eH, eW] at h43
  rw [h43, v42_at, v41_at, v40_at, Cert.Spec.G_apply]
  refine congrArg (fun a => Cert.Spec.softmax9 a k) (funext fun k' => ?_)
  unfold row
  have h29 := v29_at x0 x1 x2 b (Cert.Spec.cellOf H) (Cert.Spec.cellOf W) ⟨H.val % 16, by omega⟩ ⟨W.val % 16, by omega⟩ k'
  rw [eH, eW] at h29
  exact h29

end Cert.RefValue

end
-- ==== Proof.lean ====
/-
  The certificate of the super-token affinity kernel against its jnp reference.

  For every pixel (H, W) of a 512 × 512 image with 16 channels and every tap k of the 3 × 3 neighbourhood of the pixel's
  16 × 16 cell, both programs compute the softmax over the taps of
      ((∑ c, x[b, c, H, W] · P[b, c, k, H / 16, W / 16]) · ¼) · para[0, 0, pixel of the cell, k],
  where P is the stack of the nine shifted copies of the zero-padded cell features (`Cert.Spec.G`).  The kernel does it
  tile by tile (256 × 128 pixels a grid point, the channel sum accumulated term by term from zero), the reference on
  whole arrays (the channel sum as one contraction); on the extended reals a sum does not depend on its order or
  grouping, so the two agree whatever the inputs hold, and the precondition is not used.

  * The kernel program's frame, at the machine's words and at the ideal values: one text for both
    (`Cert.Kernel.Hand.frame`, `Cert.KernelIdeal.Hand.frame`).
  * The reference's frame: its run with the result dropped.
  * The idealization rewrote nothing, so `preserves` is trivial.
  * `algebraic`: the kernel program ends with its result array at `G` (`Cert.KernelIdeal.HandValue.run`), the reference
    with its at its last stage, which is `G` (`Cert.RefValue.ref_eq`), of arguments that agree; both build the stack P by
    the same operations (`stack_eq`).
-/
import proofs.«147833_j50508815401493_1_alg».proof.Defs
import proofs.«147833_j50508815401493_1_alg».proof.Proof.Gen.Kernel
import proofs.«147833_j50508815401493_1_alg».proof.Proof.Gen.KernelIdeal
import proofs.«147833_j50508815401493_1_alg».proof.Proof.Gen.ReferenceIdeal
import proofs.«147833_j50508815401493_1_alg».proof.Proof.Gen.Pre_finite_inputs
import proofs.«147833_j50508815401493_1_alg».proof.Proof.Gen.ReferenceIdeal.Run
import proofs.«147833_j50508815401493_1_alg».proof.Proof.Gen.ReferenceIdeal.Read
import proofs.«147833_j50508815401493_1_alg».proof.Proof.KFrame
import proofs.«147833_j50508815401493_1_alg».proof.Proof.KIFrame
import proofs.«147833_j50508815401493_1_alg».proof.Proof.KIValue
import proofs.«147833_j50508815401493_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs build the stack of shifted cell features by the same operations: the zero padding, the nine slices,
    the new axis, the concatenation. -/
theorem stack_eq (x1 : FVec Ideal Cert.KernelIdeal.S16x16x32x32 .f32) :
    Cert.KernelIdeal.HandValue.patches x1 = Cert.ReferenceIdeal.Read.val_main_v22 (F := Ideal) x1 := by
  unfold Cert.KernelIdeal.HandValue.patches Cert.KernelIdeal.HandValue.padded Cert.ReferenceIdeal.Read.val_main_v22
    Cert.ReferenceIdeal.Read.val_main_v13 Cert.ReferenceIdeal.Read.val_main_v14 Cert.ReferenceIdeal.Read.val_main_v15
    Cert.ReferenceIdeal.Read.val_main_v16 Cert.ReferenceIdeal.Read.val_main_v17 Cert.ReferenceIdeal.Read.val_main_v18
    Cert.ReferenceIdeal.Read.val_main_v19 Cert.ReferenceIdeal.Read.val_main_v20 Cert.ReferenceIdeal.Read.val_main_v21
    Cert.ReferenceIdeal.Read.val_main_v4 Cert.ReferenceIdeal.Read.val_main_v5 Cert.ReferenceIdeal.Read.val_main_v6
    Cert.ReferenceIdeal.Read.val_main_v7 Cert.ReferenceIdeal.Read.val_main_v8 Cert.ReferenceIdeal.Read.val_main_v9
    Cert.ReferenceIdeal.Read.val_main_v10 Cert.ReferenceIdeal.Read.val_main_v11 Cert.ReferenceIdeal.Read.val_main_v12
    Cert.ReferenceIdeal.Read.val_main_v3 Cert.ReferenceIdeal.Read.val_main_call0_v0 Cert.ReferenceIdeal.Read.val_main_c
  rfl

theorem algebraic : Cert.algebraic_KernelIdeal_ReferenceIdeal := by
  intro m ρ m' ρ' _ hagree
  refine ⟨fun c => Cert.KernelIdeal.HandValue.Gk m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.RefValue.ref_eq, (hagree c).1, (hagree c).2.1, (hagree c).2.2]
  show Cert.Spec.G _ _ _ = Cert.Spec.G _ (Cert.KernelIdeal.HandValue.patches _) _
  rw [stack_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
